-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000x1 : Shape := ⟨2, ![3200000, 1]⟩
abbrev S3200000 : Shape := ⟨1, ![3200000]⟩
abbrev S256x129 : Shape := ⟨2, ![256, 129]⟩
abbrev S256 : Shape := ⟨1, ![256]⟩
abbrev S256x257 : Shape := ⟨2, ![256, 257]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S256x129 : S_.BroadcastsInDim S256x129 (![] : Fin 0 → Fin S256x129.rank)
  reducesTo_S256x129_S_d0_1 : S256x129.ReducesTo [0, 1] S_
  bcast_S_S256 : S_.BroadcastsInDim S256 (![] : Fin 0 → Fin S256.rank)
  reducesTo_S256_S_d0 : S256.ReducesTo [0] S_
  bcast_S_S256x257 : S_.BroadcastsInDim S256x257 (![] : Fin 0 → Fin S256x257.rank)
  reducesTo_S256x257_S_d0_1 : S256x257.ReducesTo [0, 1] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S256x256 .f32) (main_arg16 : FVec F S256 .f32) (main_arg17 : FVec F S1x256 .f32) (main_arg18 : FVec F S1 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S1x256 .f32 := Host.absf main_arg17
  let main_cst_30 : FVec F S_ .f32 := constant S_ .f32 0x7F800000#32
  let main_v80 : FVec F S1x256 .f32 := broadcastInDim S1x256 ![] bcast_S_S1x256 main_cst_30
  let main_v81 : IVec S1x256 1 := cmpf .olt main_v79 main_v80
  let main_c_31 : IVec S_ 1 := constantI S_ 1 1#1
  let main_v82 : IVec S_ 1 := (fun x v => Host.reduce IntOp.andi x v reducesTo_S1x256_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S256 .f32) (main_arg13 : FVec F S256x257 .f32) (main_arg14 : FVec F S256 .f32) (main_arg15 : FVec F S256x256 .f32) (main_arg16 : FVec F S256 .f32) (main_arg17 : FVec F S1x256 .f32) (main_arg18 : FVec F S1 .f32) (main_v48 : IVec S_ 1) (main_v49 : FVec F S256x257 .f32) (main_v50 : FVec F S256x257 .f32) : IVec S_ 1 :=
  let main_v51 : IVec S256x257 1 := cmpf .olt main_v49 main_v50
  let main_c_19 : IVec S_ 1 := constantI S_ 1 1#1
  let main_v52 : IVec S_ 1 := (fun x v => Host.reduce IntOp.andi x v reducesTo_S256x257_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x257 .f32 := Host.absf main_arg13
  let main_cst_22 : FVec F S_ .f32 := constant S_ .f32 0x7F800000#32
  let main_v60 : FVec F S256x257 .f32 := broadcastInDim S256x257 ![] bcast_S_S256x257 main_cst_22
  let main_v61 : IVec S256x257 1 := cmpf .olt main_v59 main_v60
  let main_c_23 : IVec S_ 1 := constantI S_ 1 1#1
  let main_v62 : IVec S_ 1 := (fun x v => Host.reduce IntOp.andi x v reducesTo_S256x257_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_v63 main_v67

def fn_part2 {F : FTy → Type} [FloatOps F] (main_arg8 : FVec F S256 .f32) (main_arg9 : FVec F S256x257 .f32) (main_arg10 : FVec F S256 .f32) (main_arg11 : FVec F S256x257 .f32) (main_arg12 : FVec F S256 .f32) (main_arg13 : FVec F S256x257 .f32) (main_arg14 : FVec F S256 .f32) (main_arg15 : FVec F S256x256 .f32) (main_arg16 : FVec F S256 .f32) (main_arg17 : FVec F S1x256 .f32) (main_arg18 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x257 .f32 := Host.absf main_arg9
  let main_cst_14 : FVec F S_ .f32 := constant S_ .f32 0x7F800000#32
  let main_v40 : FVec F S256x257 .f32 := broadcastInDim S256x257 ![] bcast_S_S256x257 main_cst_14
  let main_v41 : IVec S256x257 1 := cmpf .olt main_v39 main_v40
  let main_c_15 : IVec S_ 1 := constantI S_ 1 1#1
  let main_v42 : IVec S_ 1 := (fun x v => Host.reduce IntOp.andi x v reducesTo_S256x257_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x257 .f32 := Host.absf main_arg11
  let main_cst_18 : FVec F S_ .f32 := constant S_ .f32 0x7F800000#32
  let main_v50 : FVec F S256x257 .f32 := broadcastInDim S256x257 ![] bcast_S_S256x257 main_cst_18
  fn_part3 (F := F) main_arg12 main_arg13 main_arg14 main_arg15 main_arg16 main_arg17 main_arg18 main_v48 main_v49 main_v50

def fn_part1 {F : FTy → Type} [FloatOps F] (main_arg5 : FVec F S256x257 .f32) (main_arg6 : FVec F S256 .f32) (main_arg7 : FVec F S256x257 .f32) (main_arg8 : FVec F S256 .f32) (main_arg9 : FVec F S256x257 .f32) (main_arg10 : FVec F S256 .f32) (main_arg11 : FVec F S256x257 .f32) (main_arg12 : FVec F S256 .f32) (main_arg13 : FVec F S256x257 .f32) (main_arg14 : FVec F S256 .f32) (main_arg15 : FVec F S256x256 .f32) (main_arg16 : FVec F S256 .f32) (main_arg17 : FVec F S1x256 .f32) (main_arg18 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x257 .f32 := Host.absf main_arg5
  let main_cst_6 : FVec F S_ .f32 := constant S_ .f32 0x7F800000#32
  let main_v20 : FVec F S256x257 .f32 := broadcastInDim S256x257 ![] bcast_S_S256x257 main_cst_6
  let main_v21 : IVec S256x257 1 := cmpf .olt main_v19 main_v20
  let main_c_7 : IVec S_ 1 := constantI S_ 1 1#1
  let main_v22 : IVec S_ 1 := (fun x v => Host.reduce IntOp.andi x v reducesTo_S256x257_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x257 .f32 := Host.absf main_arg7
  let main_cst_10 : FVec F S_ .f32 := constant S_ .f32 0x7F800000#32
  let main_v30 : FVec F S256x257 .f32 := broadcastInDim S256x257 ![] bcast_S_S256x257 main_cst_10
  let main_v31 : IVec S256x257 1 := cmpf .olt main_v29 main_v30
  let main_c_11 : IVec S_ 1 := constantI S_ 1 1#1
  let main_v32 : IVec S_ 1 := (fun x v => Host.reduce IntOp.andi x v reducesTo_S256x257_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : FVec F S3200000x1 .f32) (main_arg2 : IVec S3200000 32) (main_arg3 : FVec F S256x129 .f32) (main_arg4 : FVec F S256 .f32) (main_arg5 : FVec F S256x257 .f32) (main_arg6 : FVec F S256 .f32) (main_arg7 : FVec F S256x257 .f32) (main_arg8 : FVec F S256 .f32) (main_arg9 : FVec F S256x257 .f32) (main_arg10 : FVec F S256 .f32) (main_arg11 : FVec F S256x257 .f32) (main_arg12 : FVec F S256 .f32) (main_arg13 : FVec F S256x257 .f32) (main_arg14 : FVec F S256 .f32) (main_arg15 : FVec F S256x256 .f32) (main_arg16 : FVec F S256 .f32) (main_arg17 : FVec F S1x256 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x1 .f32 := Host.absf main_arg1
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S256x129 .f32 := Host.absf main_arg3
  let main_cst_2 : FVec F S_ .f32 := constant S_ .f32 0x7F800000#32
  let main_v10 : FVec F S256x129 .f32 := broadcastInDim S256x129 ![] bcast_S_S256x129 main_cst_2
  let main_v11 : IVec S256x129 1 := cmpf .olt main_v9 main_v10
  let main_c_3 : IVec S_ 1 := constantI S_ 1 1#1
  let main_v12 : IVec S_ 1 := (fun x v => Host.reduce IntOp.andi x v reducesTo_S256x129_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S3200000x1 : Shape := ⟨2, ![3200000, 1]⟩
abbrev S3200000 : Shape := ⟨1, ![3200000]⟩
abbrev S256x129 : Shape := ⟨2, ![256, 129]⟩
abbrev S256 : Shape := ⟨1, ![256]⟩
abbrev S256x257 : Shape := ⟨2, ![256, 257]⟩
abbrev S256x256 : Shape := ⟨2, ![256, 256]⟩
abbrev S1x256 : Shape := ⟨2, ![1, 256]⟩
abbrev S1 : Shape := ⟨1, ![1]⟩
abbrev S_ : Shape := ⟨0, ![]⟩
abbrev S100000x1 : Shape := ⟨2, ![100000, 1]⟩
abbrev S1x1 : Shape := ⟨2, ![1, 1]⟩
abbrev S5000x128 : Shape := ⟨2, ![5000, 128]⟩
abbrev S5000x1 : Shape := ⟨2, ![5000, 1]⟩
abbrev S5000x129 : Shape := ⟨2, ![5000, 129]⟩
abbrev S129x256 : Shape := ⟨2, ![129, 256]⟩
abbrev S5000x256 : Shape := ⟨2, ![5000, 256]⟩
abbrev S5000x257 : Shape := ⟨2, ![5000, 257]⟩
abbrev S257x256 : Shape := ⟨2, ![257, 256]⟩
abbrev S256x1 : Shape := ⟨2, ![256, 1]⟩

abbrev nBuf : Space → Nat
  | .hbm => 32
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S3200000x1, .f32⟩
  | .hbm, ⟨2, _⟩ => ⟨S3200000, .i32⟩
  | .hbm, ⟨3, _⟩ => ⟨S256x129, .f32⟩
  | .hbm, ⟨4, _⟩ => ⟨S256, .f32⟩
  | .hbm, ⟨5, _⟩ => ⟨S256x257, .f32⟩
  | .hbm, ⟨6, _⟩ => ⟨S256, .f32⟩
  | .hbm, ⟨7, _⟩ => ⟨S256x257, .f32⟩
  | .hbm, ⟨8, _⟩ => ⟨S256, .f32⟩
  | .hbm, ⟨9, _⟩ => ⟨S256x257, .f32⟩
  | .hbm, ⟨10, _⟩ => ⟨S256, .f32⟩
  | .hbm, ⟨11, _⟩ => ⟨S256x257, .f32⟩
  | .hbm, ⟨12, _⟩ => ⟨S256, .f32⟩
  | .hbm, ⟨13, _⟩ => ⟨S256x257, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S_, .f32⟩
  | .hbm, ⟨20, _⟩ => ⟨S100000x1, .f32⟩
  | .hbm, ⟨21, _⟩ => ⟨S3200000x1, .i32⟩
  | .hbm, ⟨22, _⟩ => ⟨S100000x1, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x1, .f32⟩
  | .hbm, ⟨31, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S256x129, .f32⟩
  | .local _ .vmem, ⟨5, _⟩ => ⟨S1x256, .f32⟩
  | .local _ .vmem, ⟨6, _⟩ => ⟨S256x257, .f32⟩
  | .local _ .vmem, ⟨7, _⟩ => ⟨S1x256, .f32⟩
  | .local _ .vmem, ⟨8, _⟩ => ⟨S256x257, .f32⟩
  | .local _ .vmem, ⟨9, _⟩ => ⟨S1x256, .f32⟩
  | .local _ .vmem, ⟨10, _⟩ => ⟨S256x257, .f32⟩
  | .local _ .vmem, ⟨11, _⟩ => ⟨S1x256, .f32⟩
  | .local _ .vmem, ⟨12, _⟩ => ⟨S256x257, .f32⟩
  | .local _ .vmem, ⟨13, _⟩ => ⟨S1x256, .f32⟩
  | .local _ .vmem, ⟨14, _⟩ => ⟨S256x257, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x129 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x257 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x257 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x257 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S5000x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  shapeCasts_S256_S1x256 : S256.ShapeCasts S1x256
  shapeCasts_S1_S1x1 : S1.ShapeCasts S1x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  concatenates_S5000x128_S5000x1_S5000x129_d1 : Shape.Concatenates [S5000x128, S5000x1] S5000x129 1
  inb_S256x129_S256x129_0_0 : ∀ a, (![0, 0] : Fin 2 → Nat) a + S256x129.size a ≤ S256x129.size a
  h_S256x129 : 0 < S256x129.numel
  transposes_S256x129_p1_0_S129x256 : S256x129.Transposes [1, 0] S129x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  concatenates_S5000x256_S5000x1_S5000x257_d1 : Shape.Concatenates [S5000x256, S5000x1] S5000x257 1
  inb_S256x257_S256x257_0_0 : ∀ a, (![0, 0] : Fin 2 → Nat) a + S256x257.size a ≤ S256x257.size a
  h_S256x257 : 0 < S256x257.numel
  transposes_S256x257_p1_0_S257x256 : S256x257.Transposes [1, 0] S257x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  transposes_S1x256_p1_0_S256x1 : S1x256.Transposes [1, 0] S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000x1_S3200000x1_S3200000x1_1_0_0_1_wf : ScatterDims.WF S100000x1 S3200000x1 S3200000x1 [1] [0] [0] 1
  dot_S5000x129_S129x256_S5000x256_1_0_0_1_n_n_wf : DotDims.WF S5000x129 S129x256 S5000x256 [1] [0] [0] [1] [] []
  dot_S5000x257_S257x256_S5000x256_1_0_0_1_n_n_wf : DotDims.WF S5000x257 S257x256 S5000x256 [1] [0] [0] [1] [] []
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x129.size a ≤ S256x129.size a
  hwx0_2 : ∀ i : grid0.Coords, EltTy.bits .f32 = 32 ∨ (Rect.block (s := S256x129) S256x129.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x257.size a ≤ S256x257.size a
  hwx0_4 : ∀ i : grid0.Coords, EltTy.bits .f32 = 32 ∨ (Rect.block (s := S256x257) S256x257.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x257.size a ≤ S256x257.size a
  hwx0_6 : ∀ i : grid0.Coords, EltTy.bits .f32 = 32 ∨ (Rect.block (s := S256x257) S256x257.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x257.size a ≤ S256x257.size a
  hwx0_8 : ∀ i : grid0.Coords, EltTy.bits .f32 = 32 ∨ (Rect.block (s := S256x257) S256x257.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x257.size a ≤ S256x257.size a
  hwx0_10 : ∀ i : grid0.Coords, EltTy.bits .f32 = 32 ∨ (Rect.block (s := S256x257) S256x257.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x257.size a ≤ S256x257.size a
  hwx0_12 : ∀ i : grid0.Coords, EltTy.bits .f32 = 32 ∨ (Rect.block (s := S256x257) S256x257.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .f32 = 32 ∨ (Rect.block (s := S256x256) S256x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x256.size a
  hwx0_15 : ∀ i : grid0.Coords, EltTy.bits .f32 = 32 ∨ (Rect.block (s := S1x256) S1x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S5000x1.size a ≤ S100000x1.size a
  hwx0_18 : ∀ i : grid0.Coords, EltTy.bits .f32 = 32 ∨ (Rect.block (s := S100000x1) S5000x1.size (cc0_transform_18 i) (hinb0_18 i)).WholeWords (EltTy.packing .f32)

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S5000x129_S129x256_S5000x256_1_0_0_1_n_n : DotDims S5000x129 S129x256 S5000x256 where
  lhsContracting := [1]
  rhsContracting := [0]
  lhsNonContracting := [0]
  rhsNonContracting := [1]
  lhsBatch := []
  rhsBatch := []
  wf := dot_S5000x129_S129x256_S5000x256_1_0_0_1_n_n_wf
def dot_S5000x257_S257x256_S5000x256_1_0_0_1_n_n : DotDims S5000x257 S257x256 S5000x256 where
  lhsContracting := [1]
  rhsContracting := [0]
  lhsNonContracting := [0]
  rhsNonContracting := [1]
  lhsBatch := []
  rhsBatch := []
  wf := dot_S5000x257_S257x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x129.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x257.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x257.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256x257.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256x257.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S256x257.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S1x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v10) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S5000x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S100000x128 : Shape := ⟨2, ![100000, 128]⟩
abbrev S3200000x1 : Shape := ⟨2, ![3200000, 1]⟩
abbrev S3200000 : Shape := ⟨1, ![3200000]⟩
abbrev S256x129 : Shape := ⟨2, ![256, 129]⟩
abbrev S256 : Shape := ⟨1, ![256]⟩
abbrev S256x257 : Shape := ⟨2, ![256, 257]⟩
abbrev S256x256 : Shape := ⟨2, ![256, 256]⟩
abbrev S1x256 : Shape := ⟨2, ![1, 256]⟩
abbrev S1 : Shape := ⟨1, ![1]⟩
abbrev S_ : Shape := ⟨0, ![]⟩
abbrev S100000x1 : Shape := ⟨2, ![100000, 1]⟩
abbrev S100000x129 : Shape := ⟨2, ![100000, 129]⟩
abbrev S129x256 : Shape := ⟨2, ![129, 256]⟩
abbrev S100000x256 : Shape := ⟨2, ![100000, 256]⟩
abbrev S100000x257 : Shape := ⟨2, ![100000, 257]⟩
abbrev S257x256 : Shape := ⟨2, ![257, 256]⟩
abbrev S256x1 : Shape := ⟨2, ![256, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000x1, .f32⟩
  | .hbm, ⟨2, _⟩ => ⟨S3200000, .i32⟩
  | .hbm, ⟨3, _⟩ => ⟨S256x129, .f32⟩
  | .hbm, ⟨4, _⟩ => ⟨S256, .f32⟩
  | .hbm, ⟨5, _⟩ => ⟨S256x257, .f32⟩
  | .hbm, ⟨6, _⟩ => ⟨S256, .f32⟩
  | .hbm, ⟨7, _⟩ => ⟨S256x257, .f32⟩
  | .hbm, ⟨8, _⟩ => ⟨S256, .f32⟩
  | .hbm, ⟨9, _⟩ => ⟨S256x257, .f32⟩
  | .hbm, ⟨10, _⟩ => ⟨S256, .f32⟩
  | .hbm, ⟨11, _⟩ => ⟨S256x257, .f32⟩
  | .hbm, ⟨12, _⟩ => ⟨S256, .f32⟩
  | .hbm, ⟨13, _⟩ => ⟨S256x257, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S1x256, .f32⟩
  | .hbm, ⟨18, _⟩ => ⟨S1, .f32⟩
  | .hbm, ⟨19, _⟩ => ⟨S_, .f32⟩
  | .hbm, ⟨20, _⟩ => ⟨S100000x1, .f32⟩
  | .hbm, ⟨21, _⟩ => ⟨S3200000x1, .i32⟩
  | .hbm, ⟨22, _⟩ => ⟨S100000x1, .f32⟩
  | .hbm, ⟨23, _⟩ => ⟨S100000x129, .f32⟩
  | .hbm, ⟨24, _⟩ => ⟨S129x256, .f32⟩
  | .hbm, ⟨25, _⟩ => ⟨S100000x256, .f32⟩
  | .hbm, ⟨26, _⟩ => ⟨S1x256, .f32⟩
  | .hbm, ⟨27, _⟩ => ⟨S100000x256, .f32⟩
  | .hbm, ⟨28, _⟩ => ⟨S100000x256, .f32⟩
  | .hbm, ⟨29, _⟩ => ⟨S_, .f32⟩
  | .hbm, ⟨30, _⟩ => ⟨S100000x256, .f32⟩
  | .hbm, ⟨31, _⟩ => ⟨S100000x256, .f32⟩
  | .hbm, ⟨32, _⟩ => ⟨S100000x257, .f32⟩
  | .hbm, ⟨33, _⟩ => ⟨S257x256, .f32⟩
  | .hbm, ⟨34, _⟩ => ⟨S100000x256, .f32⟩
  | .hbm, ⟨35, _⟩ => ⟨S1x256, .f32⟩
  | .hbm, ⟨36, _⟩ => ⟨S100000x256, .f32⟩
  | .hbm, ⟨37, _⟩ => ⟨S100000x256, .f32⟩
  | .hbm, ⟨38, _⟩ => ⟨S_, .f32⟩
  | .hbm, ⟨39, _⟩ => ⟨S100000x256, .f32⟩
  | .hbm, ⟨40, _⟩ => ⟨S100000x256, .f32⟩
  | .hbm, ⟨41, _⟩ => ⟨S100000x257, .f32⟩
  | .hbm, ⟨42, _⟩ => ⟨S257x256, .f32⟩
  | .hbm, ⟨43, _⟩ => ⟨S100000x256, .f32⟩
  | .hbm, ⟨44, _⟩ => ⟨S1x256, .f32⟩
  | .hbm, ⟨45, _⟩ => ⟨S100000x256, .f32⟩
  | .hbm, ⟨46, _⟩ => ⟨S100000x256, .f32⟩
  | .hbm, ⟨47, _⟩ => ⟨S_, .f32⟩
  | .hbm, ⟨48, _⟩ => ⟨S100000x256, .f32⟩
  | .hbm, ⟨49, _⟩ => ⟨S100000x256, .f32⟩
  | .hbm, ⟨50, _⟩ => ⟨S100000x257, .f32⟩
  | .hbm, ⟨51, _⟩ => ⟨S257x256, .f32⟩
  | .hbm, ⟨52, _⟩ => ⟨S100000x256, .f32⟩
  | .hbm, ⟨53, _⟩ => ⟨S1x256, .f32⟩
  | .hbm, ⟨54, _⟩ => ⟨S100000x256, .f32⟩
  | .hbm, ⟨55, _⟩ => ⟨S100000x256, .f32⟩
  | .hbm, ⟨56, _⟩ => ⟨S_, .f32⟩
  | .hbm, ⟨57, _⟩ => ⟨S100000x256, .f32⟩
  | .hbm, ⟨58, _⟩ => ⟨S100000x256, .f32⟩
  | .hbm, ⟨59, _⟩ => ⟨S100000x257, .f32⟩
  | .hbm, ⟨60, _⟩ => ⟨S257x256, .f32⟩
  | .hbm, ⟨61, _⟩ => ⟨S100000x256, .f32⟩
  | .hbm, ⟨62, _⟩ => ⟨S1x256, .f32⟩
  | .hbm, ⟨63, _⟩ => ⟨S100000x256, .f32⟩
  | .hbm, ⟨64, _⟩ => ⟨S100000x256, .f32⟩
  | .hbm, ⟨65, _⟩ => ⟨S_, .f32⟩
  | .hbm, ⟨66, _⟩ => ⟨S100000x256, .f32⟩
  | .hbm, ⟨67, _⟩ => ⟨S100000x256, .f32⟩
  | .hbm, ⟨68, _⟩ => ⟨S100000x257, .f32⟩
  | .hbm, ⟨69, _⟩ => ⟨S257x256, .f32⟩
  | .hbm, ⟨70, _⟩ => ⟨S100000x256, .f32⟩
  | .hbm, ⟨71, _⟩ => ⟨S1x256, .f32⟩
  | .hbm, ⟨72, _⟩ => ⟨S100000x256, .f32⟩
  | .hbm, ⟨73, _⟩ => ⟨S100000x256, .f32⟩
  | .hbm, ⟨74, _⟩ => ⟨S_, .f32⟩
  | .hbm, ⟨75, _⟩ => ⟨S100000x256, .f32⟩
  | .hbm, ⟨76, _⟩ => ⟨S100000x256, .f32⟩
  | .hbm, ⟨77, _⟩ => ⟨S256x256, .f32⟩
  | .hbm, ⟨78, _⟩ => ⟨S100000x256, .f32⟩
  | .hbm, ⟨79, _⟩ => ⟨S1x256, .f32⟩
  | .hbm, ⟨80, _⟩ => ⟨S100000x256, .f32⟩
  | .hbm, ⟨81, _⟩ => ⟨S100000x256, .f32⟩
  | .hbm, ⟨82, _⟩ => ⟨S_, .f32⟩
  | .hbm, ⟨83, _⟩ => ⟨S100000x256, .f32⟩
  | .hbm, ⟨84, _⟩ => ⟨S100000x256, .f32⟩
  | .hbm, ⟨85, _⟩ => ⟨S256x1, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call0_cst : Ref sig .tc := ⟨.hbm, 29, rfl⟩
abbrev main_call0_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call1_cst : Ref sig .tc := ⟨.hbm, 38, rfl⟩
abbrev main_call1_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call2_cst : Ref sig .tc := ⟨.hbm, 47, rfl⟩
abbrev main_call2_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call3_cst : Ref sig .tc := ⟨.hbm, 56, rfl⟩
abbrev main_call3_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call4_cst : Ref sig .tc := ⟨.hbm, 65, rfl⟩
abbrev main_call4_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call5_cst : Ref sig .tc := ⟨.hbm, 74, rfl⟩
abbrev main_call5_v0 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call6_cst : Ref sig .tc := ⟨.hbm, 82, rfl⟩
abbrev main_call6_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  bcast_S_S100000x1 : S_.BroadcastsInDim S100000x1 (![] : Fin 0 → Fin S100000x1.rank)
  bcast_S3200000_S3200000x1_0 : S3200000.BroadcastsInDim S3200000x1 (![0] : Fin 1 → Fin S3200000x1.rank)
  concatenates_S100000x128_S100000x1_S100000x129_d1 : Shape.Concatenates [S100000x128, S100000x1] S100000x129 1
  transposes_S256x129_S129x256_1_0 : S256x129.Transposes [1, 0] S129x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  concatenates_S100000x256_S100000x1_S100000x257_d1 : Shape.Concatenates [S100000x256, S100000x1] S100000x257 1
  transposes_S256x257_S257x256_1_0 : S256x257.Transposes [1, 0] S257x256
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000x1_S3200000x1_S3200000x1_1_0_0_1_wf : ScatterDims.WF S100000x1 S3200000x1 S3200000x1 [1] [0] [0] 1
  dot_S100000x129_S129x256_S100000x256_1_0_0_1_n_n_wf : DotDims.WF S100000x129 S129x256 S100000x256 [1] [0] [0] [1] [] []
  dot_S100000x257_S257x256_S100000x256_1_0_0_1_n_n_wf : DotDims.WF S100000x257 S257x256 S100000x256 [1] [0] [0] [1] [] []
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x129_S129x256_S100000x256_1_0_0_1_n_n : DotDims S100000x129 S129x256 S100000x256 where
  lhsContracting := [1]
  rhsContracting := [0]
  lhsNonContracting := [0]
  rhsNonContracting := [1]
  lhsBatch := []
  rhsBatch := []
  wf := dot_S100000x129_S129x256_S100000x256_1_0_0_1_n_n_wf
def dot_S100000x257_S257x256_S100000x256_1_0_0_1_n_n : DotDims S100000x257 S257x256 S100000x256 where
  lhsContracting := [1]
  rhsContracting := [0]
  lhsNonContracting := [0]
  rhsNonContracting := [1]
  lhsBatch := []
  rhsBatch := []
  wf := dot_S100000x257_S257x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Layers.lean ====
/-
  One layer of the network, read row by row.

  A layer takes a matrix `x` with one row per node, optionally appends to every row the node's aggregated edge
  feature `a` as a last column, multiplies by the transposed weights, adds the bias along the rows and (except in
  the last layer) clamps at zero from below:  `y(p, q) = max (∑ k, [x | a](p, k) · W(q, k) + b(q)) 0`.
  Entry `(p, q)` of the result depends on row `p` of `x` and of `a` only.  So if the rows of a block `x` are rows
  `e p` of a taller matrix `x'` (and likewise for `a`), the rows of the layer of the block are the rows `e p` of
  the layer of the taller matrix: that is what the lemmas below say, for the layer computed on the block by a
  matrix unit product into a zero accumulator with a one-row bias broadcast down the rows, and on the taller
  matrix by the host's `dot_general` with the bias vector broadcast along axis 1.  The sums over `k` on the two
  sides have the same terms in the same order, so no law of the extended reals beyond congruence is used.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«104368_j76192719831691_1_alg».proof.Proof.LibPlainDot

noncomputable section

namespace Cert.Sage

open Idealize.ShloMosaic Idealize.ShloMosaic.ValueIdx Cert.Lib.PlainDot

variable {M M' D K H : Nat}

/-! ## The appended column -/

/-- Entry `(p, k)` of `[x | a]`, for a column `k` of `x`. -/
theorem cat_apply_left (hc : Shape.Concatenates [(⟨2, ![M, D]⟩ : Shape), ⟨2, ![M, 1]⟩] ⟨2, ![M, K]⟩ 1)
    (x : FVec Ideal ⟨2, ![M, D]⟩ .f32) (a : FVec Ideal ⟨2, ![M, 1]⟩ .f32) (p : Fin M) (k : Fin K) (hk : k.val < D) :
    concatenate ⟨2, ![M, K]⟩ 1 [⟨⟨2, ![M, D]⟩, x⟩, ⟨⟨2, ![M, 1]⟩, a⟩] hc (ix2 p k) = x (ix2 p ⟨k.val, hk⟩) :=
  concatenate_pair_apply_left 1 x a hc (ix2 p k) rfl (ix2 p ⟨k.val, hk⟩)
    (fun b => match b with | ⟨0, _⟩ => rfl | ⟨1, _⟩ => rfl)

/-- Entry `(p, D)` of `[x | a]`: the appended column. -/
theorem cat_apply_right (hc : Shape.Concatenates [(⟨2, ![M, D]⟩ : Shape), ⟨2, ![M, 1]⟩] ⟨2, ![M, K]⟩ 1)
    (x : FVec Ideal ⟨2, ![M, D]⟩ .f32) (a : FVec Ideal ⟨2, ![M, 1]⟩ .f32) (p : Fin M) (k : Fin K) (hk : k.val = D) :
    concatenate ⟨2, ![M, K]⟩ 1 [⟨⟨2, ![M, D]⟩, x⟩, ⟨⟨2, ![M, 1]⟩, a⟩] hc (ix2 p k) = a (ix2 p (0 : Fin 1)) :=
  concatenate_pair_apply_right 1 x a hc (ix2 p k) rfl rfl (ix2 p (0 : Fin 1))
    (fun b hb => match b, hb with | ⟨0, _⟩, _ => rfl | ⟨1, _⟩, hb => absurd rfl hb)
    (by show 0 + D = k.val; omega)

/-- Row `p` of `[x | a]` is row `e p` of `[x' | a']` when the rows of `x`, `a` are those rows of `x'`, `a'`. -/
theorem cat_rows (e : Fin M → Fin M') (hK : K = D + 1)
    (hc : Shape.Concatenates [(⟨2, ![M, D]⟩ : Shape), ⟨2, ![M, 1]⟩] ⟨2, ![M, K]⟩ 1)
    (hc' : Shape.Concatenates [(⟨2, ![M', D]⟩ : Shape), ⟨2, ![M', 1]⟩] ⟨2, ![M', K]⟩ 1)
    (x : FVec Ideal ⟨2, ![M, D]⟩ .f32) (x' : FVec Ideal ⟨2, ![M', D]⟩ .f32)
    (a : FVec Ideal ⟨2, ![M, 1]⟩ .f32) (a' : FVec Ideal ⟨2, ![M', 1]⟩ .f32)
    (hx : ∀ (p : Fin M) (k : Fin D), x (ix2 p k) = x' (ix2 (e p) k))
    (ha : ∀ p : Fin M, a (ix2 p (0 : Fin 1)) = a' (ix2 (e p) (0 : Fin 1))) (p : Fin M) (k : Fin K) :
    concatenate ⟨2, ![M, K]⟩ 1 [⟨⟨2, ![M, D]⟩, x⟩, ⟨⟨2, ![M, 1]⟩, a⟩] hc (ix2 p k)
      = concatenate ⟨2, ![M', K]⟩ 1 [⟨⟨2, ![M', D]⟩, x'⟩, ⟨⟨2, ![M', 1]⟩, a'⟩] hc' (ix2 (e p) k) := by
  by_cases hk : k.val < D
  · rw [cat_apply_left hc x a p k hk, cat_apply_left hc' x' a' (e p) k hk, hx]
  · have hk' : k.val = D := by have := k.isLt; omega
    rw [cat_apply_right hc x a p k hk', cat_apply_right hc' x' a' (e p) k hk', ha]

/-! ## The bias along the rows -/

/-- A one-row bias (its own shape cast) broadcast down the rows, against the bias vector broadcast along axis 1. -/
theorem bias_rows (e : Fin M → Fin M')
    (hs : (⟨2, ![1, H]⟩ : Shape).ShapeCasts ⟨2, ![1, H]⟩) (hb : (⟨2, ![1, H]⟩ : Shape).Broadcasts ⟨2, ![M, H]⟩)
    (hd1 : (⟨1, ![H]⟩ : Shape).BroadcastsInDim ⟨2, ![1, H]⟩ ![1])
    (hd2 : (⟨2, ![1, H]⟩ : Shape).BroadcastsInDim ⟨2, ![M', H]⟩ ![0, 1])
    (b : FVec Ideal ⟨2, ![1, H]⟩ .f32) (b' : FVec Ideal ⟨1, ![H]⟩ .f32)
    (hbb : ∀ q : Fin H, b (ix2 (0 : Fin 1) q) = b' (ix1 q)) (p : Fin M) (q : Fin H) :
    broadcastTo ⟨2, ![M, H]⟩ (shapeCast ⟨2, ![1, H]⟩ b hs) hb (ix2 p q)
      = broadcastInDim ⟨2, ![M', H]⟩ ![0, 1] hd2 (broadcastInDim ⟨2, ![1, H]⟩ ![1] hd1 b') (ix2 (e p) q) := by
  rw [shapeCast_self, broadcastTo_1b_ab_apply, broadcastInDim_oneRow_apply, hbb]
  refine (broadcastInDim_apply ![1] hd1 b' (ix2 (0 : Fin 1) q) (ix1 q) fun a => ?_).symm
  match a with
  | ⟨0, _⟩ =>
    show q.val = if H = 1 then 0 else q.val
    split
    · have := q.isLt; omega
    · rfl

/-! ## The product with the transposed weights -/

/-- Row `p` of `lhs · rhs` computed on the block is row `e p` of `lhs' · rhs`: the same sum over `k`. -/
theorem prod_rows (e : Fin M → Fin M') (lhs : FVec Ideal ⟨2, ![M, K]⟩ .f32) (lhs' : FVec Ideal ⟨2, ![M', K]⟩ .f32)
    (rhs : FVec Ideal ⟨2, ![K, H]⟩ .f32) (hl : ∀ (p : Fin M) (k : Fin K), lhs (ix2 p k) = lhs' (ix2 (e p) k))
    (p : Fin M) (q : Fin H) :
    matmul (DotDims.plain M K H) none lhs rhs (constant ⟨2, ![M, H]⟩ .f32 0x00000000#32) (ix2 p q)
      = Host.dotGeneral (DotDims.plain M' K H) none lhs' rhs (ix2 (e p) q) := by
  show FloatOps.matmul (DotDims.plain M K H) none lhs rhs (constant ⟨2, ![M, H]⟩ .f32 0x00000000#32) (ix2 p q)
      = FloatOps.dotGeneral (DotDims.plain M' K H) none HostSchedule.single lhs' rhs (ix2 (e p) q)
  rw [matmul_zero_apply, dotGeneral_apply]
  exact Finset.sum_congr rfl fun k _ => by rw [hl]

/-! ## The layers -/

/-- A layer with the aggregate appended: `max ([x | a] · Wᵀ + b) 0`, rows of the block against rows of the whole. -/
theorem cat_layer_rows (e : Fin M → Fin M') (hK : K = D + 1)
    (hc : Shape.Concatenates [(⟨2, ![M, D]⟩ : Shape), ⟨2, ![M, 1]⟩] ⟨2, ![M, K]⟩ 1)
    (hc' : Shape.Concatenates [(⟨2, ![M', D]⟩ : Shape), ⟨2, ![M', 1]⟩] ⟨2, ![M', K]⟩ 1)
    (ht ht' : (⟨2, ![H, K]⟩ : Shape).Transposes [1, 0] ⟨2, ![K, H]⟩)
    (hs : (⟨2, ![1, H]⟩ : Shape).ShapeCasts ⟨2, ![1, H]⟩) (hb : (⟨2, ![1, H]⟩ : Shape).Broadcasts ⟨2, ![M, H]⟩)
    (hd1 : (⟨1, ![H]⟩ : Shape).BroadcastsInDim ⟨2, ![1, H]⟩ ![1])
    (hd2 : (⟨2, ![1, H]⟩ : Shape).BroadcastsInDim ⟨2, ![M', H]⟩ ![0, 1])
    (hz : (⟨0, ![]⟩ : Shape).BroadcastsInDim ⟨2, ![M', H]⟩ ![])
    (x : FVec Ideal ⟨2, ![M, D]⟩ .f32) (x' : FVec Ideal ⟨2, ![M', D]⟩ .f32)
    (a : FVec Ideal ⟨2, ![M, 1]⟩ .f32) (a' : FVec Ideal ⟨2, ![M', 1]⟩ .f32)
    (W : FVec Ideal ⟨2, ![H, K]⟩ .f32) (b : FVec Ideal ⟨2, ![1, H]⟩ .f32) (b' : FVec Ideal ⟨1, ![H]⟩ .f32)
    (hx : ∀ (p : Fin M) (k : Fin D), x (ix2 p k) = x' (ix2 (e p) k))
    (ha : ∀ p : Fin M, a (ix2 p (0 : Fin 1)) = a' (ix2 (e p) (0 : Fin 1)))
    (hbb : ∀ q : Fin H, b (ix2 (0 : Fin 1) q) = b' (ix1 q)) (p : Fin M) (q : Fin H) :
    maximumf (addf (matmul (DotDims.plain M K H) none
          (concatenate ⟨2, ![M, K]⟩ 1 [⟨⟨2, ![M, D]⟩, x⟩, ⟨⟨2, ![M, 1]⟩, a⟩] hc) (transpose ⟨2, ![K, H]⟩ [1, 0] W ht)
          (constant ⟨2, ![M, H]⟩ .f32 0x00000000#32))
        (broadcastTo ⟨2, ![M, H]⟩ (shapeCast ⟨2, ![1, H]⟩ b hs) hb))
      (broadcast ⟨2, ![M, H]⟩ (Scalar.ofBits .f32 0x00000000#32)) (ix2 p q)
    = maximumf (addf (Host.dotGeneral (DotDims.plain M' K H) none
          (concatenate ⟨2, ![M', K]⟩ 1 [⟨⟨2, ![M', D]⟩, x'⟩, ⟨⟨2, ![M', 1]⟩, a'⟩] hc') (transpose ⟨2, ![K, H]⟩ [1, 0] W ht'))
        (broadcastInDim ⟨2, ![M', H]⟩ ![0, 1] hd2 (broadcastInDim ⟨2, ![1, H]⟩ ![1] hd1 b')))
      (broadcastInDim ⟨2, ![M', H]⟩ ![] hz (constant ⟨0, ![]⟩ .f32 0x00000000#32)) (ix2 (e p) q) := by
  rw [broadcastInDim_constant, maximumf_apply, maximumf_apply, addf_apply, addf_apply, broadcast_apply, broadcast_apply,
    prod_rows e _ _ _ (cat_rows e hK hc hc' x x' a a' hx ha) p q, bias_rows e hs hb hd1 hd2 b b' hbb p q]

/-- A layer without the appended column: `max (x · Wᵀ + b) 0`. -/
theorem dense_layer_rows (e : Fin M → Fin M')
    (ht ht' : (⟨2, ![H, K]⟩ : Shape).Transposes [1, 0] ⟨2, ![K, H]⟩)
    (hs : (⟨2, ![1, H]⟩ : Shape).ShapeCasts ⟨2, ![1, H]⟩) (hb : (⟨2, ![1, H]⟩ : Shape).Broadcasts ⟨2, ![M, H]⟩)
    (hd1 : (⟨1, ![H]⟩ : Shape).BroadcastsInDim ⟨2, ![1, H]⟩ ![1])
    (hd2 : (⟨2, ![1, H]⟩ : Shape).BroadcastsInDim ⟨2, ![M', H]⟩ ![0, 1])
    (hz : (⟨0, ![]⟩ : Shape).BroadcastsInDim ⟨2, ![M', H]⟩ ![])
    (x : FVec Ideal ⟨2, ![M, K]⟩ .f32) (x' : FVec Ideal ⟨2, ![M', K]⟩ .f32)
    (W : FVec Ideal ⟨2, ![H, K]⟩ .f32) (b : FVec Ideal ⟨2, ![1, H]⟩ .f32) (b' : FVec Ideal ⟨1, ![H]⟩ .f32)
    (hx : ∀ (p : Fin M) (k : Fin K), x (ix2 p k) = x' (ix2 (e p) k))
    (hbb : ∀ q : Fin H, b (ix2 (0 : Fin 1) q) = b' (ix1 q)) (p : Fin M) (q : Fin H) :
    maximumf (addf (matmul (DotDims.plain M K H) none x (transpose ⟨2, ![K, H]⟩ [1, 0] W ht)
          (constant ⟨2, ![M, H]⟩ .f32 0x00000000#32))
        (broadcastTo ⟨2, ![M, H]⟩ (shapeCast ⟨2, ![1, H]⟩ b hs) hb))
      (broadcast ⟨2, ![M, H]⟩ (Scalar.ofBits .f32 0x00000000#32)) (ix2 p q)
    = maximumf (addf (Host.dotGeneral (DotDims.plain M' K H) none x' (transpose ⟨2, ![K, H]⟩ [1, 0] W ht'))
        (broadcastInDim ⟨2, ![M', H]⟩ ![0, 1] hd2 (broadcastInDim ⟨2, ![1, H]⟩ ![1] hd1 b')))
      (broadcastInDim ⟨2, ![M', H]⟩ ![] hz (constant ⟨0, ![]⟩ .f32 0x00000000#32)) (ix2 (e p) q) := by
  rw [broadcastInDim_constant, maximumf_apply, maximumf_apply, addf_apply, addf_apply, broadcast_apply, broadcast_apply,
    prod_rows e _ _ _ hx p q, bias_rows e hs hb hd1 hd2 b b' hbb p q]

/-- The last layer: `x · Wᵀ + b`, not clamped. -/
theorem out_layer_rows (e : Fin M → Fin M')
    (ht ht' : (⟨2, ![H, K]⟩ : Shape).Transposes [1, 0] ⟨2, ![K, H]⟩)
    (hs : (⟨2, ![1, H]⟩ : Shape).ShapeCasts ⟨2, ![1, H]⟩) (hb : (⟨2, ![1, H]⟩ : Shape).Broadcasts ⟨2, ![M, H]⟩)
    (hd1 : (⟨1, ![H]⟩ : Shape).BroadcastsInDim ⟨2, ![1, H]⟩ ![1])
    (hd2 : (⟨2, ![1, H]⟩ : Shape).BroadcastsInDim ⟨2, ![M', H]⟩ ![0, 1])
    (x : FVec Ideal ⟨2, ![M, K]⟩ .f32) (x' : FVec Ideal ⟨2, ![M', K]⟩ .f32)
    (W : FVec Ideal ⟨2, ![H, K]⟩ .f32) (b : FVec Ideal ⟨2, ![1, H]⟩ .f32) (b' : FVec Ideal ⟨1, ![H]⟩ .f32)
    (hx : ∀ (p : Fin M) (k : Fin K), x (ix2 p k) = x' (ix2 (e p) k))
    (hbb : ∀ q : Fin H, b (ix2 (0 : Fin 1) q) = b' (ix1 q)) (p : Fin M) (q : Fin H) :
    addf (matmul (DotDims.plain M K H) none x (transpose ⟨2, ![K, H]⟩ [1, 0] W ht)
          (constant ⟨2, ![M, H]⟩ .f32 0x00000000#32))
        (broadcastTo ⟨2, ![M, H]⟩ (shapeCast ⟨2, ![1, H]⟩ b hs) hb) (ix2 p q)
    = addf (Host.dotGeneral (DotDims.plain M' K H) none x' (transpose ⟨2, ![K, H]⟩ [1, 0] W ht'))
        (broadcastInDim ⟨2, ![M', H]⟩ ![0, 1] hd2 (broadcastInDim ⟨2, ![1, H]⟩ ![1] hd1 b')) (ix2 (e p) q) := by
  rw [addf_apply, addf_apply, prod_rows e _ _ _ hx p q, bias_rows e hs hb hd1 hd2 b b' hbb p q]

end Cert.Sage

end
-- ==== Proof.KernelLayers.lean ====
/-
  The kernel body as eight layers.

  At one grid point the body reads a block `x` of 5000 rows of the node features, the block `a` of the same 5000
  rows of the aggregated edge feature, and all weights and one-row biases, and computes
  `h₁ = max ([x | a] W₁ᵀ + b₁) 0`, five more layers `hᵢ₊₁ = max ([hᵢ | a] Wᵀ + b) 0`, one layer
  `h₇ = max (h₆ Wᵀ + b) 0` and the result `h₇ Wᵀ + b`, a column of 5000 entries.  The definitions below name these
  layers over the body's own operations; the body's stored value is their composition.
-/
import proofs.«104368_j76192719831691_1_alg».proof.KernelIdeal
import proofs.«104368_j76192719831691_1_alg».proof.Proof.Gen.KernelIdeal
import proofs.«104368_j76192719831691_1_alg».proof.Proof.Gen.KernelIdeal.Skeleton

noncomputable section

namespace Cert.KernelIdeal.Layers

open Idealize.ShloMosaic Cert.KernelIdeal Cert.KernelIdeal.Gen

variable {F : FTy → Type} [FloatOps F]

/-- The first layer on a block: 128 feature columns and the aggregate column against a 256 × 129 weight matrix. -/
def first (x : Vec F S5000x128 .f32) (a : FVec F S5000x1 .f32) (W : Vec F S256x129 .f32) (b : Vec F S1x256 .f32) :
    FVec F S5000x256 .f32 :=
  maximumf (addf (matmul dot_S5000x129_S129x256_S5000x256_1_0_0_1_n_n none
        (concatenate S5000x129 1 [⟨S5000x128, x⟩, ⟨S5000x1, a⟩] concatenates_S5000x128_S5000x1_S5000x129_d1)
        (transpose S129x256 [1, 0] W transposes_S256x129_p1_0_S129x256) (constant S5000x256 .f32 0x00000000#32))
      (broadcastTo S5000x256 (shapeCast S1x256 b shapeCasts_S1x256_S1x256) broadcasts_S1x256_S5000x256))
    (broadcast S5000x256 (Scalar.ofBits .f32 0x00000000#32))

/-- A middle layer on a block: 256 hidden columns and the aggregate column against a 256 × 257 weight matrix. -/
def mid (h : FVec F S5000x256 .f32) (a : FVec F S5000x1 .f32) (W : Vec F S256x257 .f32) (b : Vec F S1x256 .f32) :
    FVec F S5000x256 .f32 :=
  maximumf (addf (matmul dot_S5000x257_S257x256_S5000x256_1_0_0_1_n_n none
        (concatenate S5000x257 1 [⟨S5000x256, h⟩, ⟨S5000x1, a⟩] concatenates_S5000x256_S5000x1_S5000x257_d1)
        (transpose S257x256 [1, 0] W transposes_S256x257_p1_0_S257x256) (constant S5000x256 .f32 0x00000000#32))
      (broadcastTo S5000x256 (shapeCast S1x256 b shapeCasts_S1x256_S1x256) broadcasts_S1x256_S5000x256))
    (broadcast S5000x256 (Scalar.ofBits .f32 0x00000000#32))

/-- The layer without the aggregate column: 256 hidden columns against a 256 × 256 weight matrix. -/
def dense (h : FVec F S5000x256 .f32) (W : Vec F S256x256 .f32) (b : Vec F S1x256 .f32) : FVec F S5000x256 .f32 :=
  maximumf (addf (matmul dot_S5000x256_S256x256_S5000x256_1_0_0_1_n_n none h
        (transpose S256x256 [1, 0] W transposes_S256x256_p1_0_S256x256) (constant S5000x256 .f32 0x00000000#32))
      (broadcastTo S5000x256 (shapeCast S1x256 b shapeCasts_S1x256_S1x256) broadcasts_S1x256_S5000x256))
    (broadcast S5000x256 (Scalar.ofBits .f32 0x00000000#32))

/-- The last layer: one output column, not clamped. -/
def last (h : FVec F S5000x256 .f32) (W : Vec F S1x256 .f32) (b : Vec F S1x1 .f32) : FVec F S5000x1 .f32 :=
  addf (matmul dot_S5000x256_S256x1_S5000x1_1_0_0_1_n_n none h
      (transpose S256x1 [1, 0] W transposes_S1x256_p1_0_S256x1) (constant S5000x1 .f32 0x00000000#32))
    (broadcastTo S5000x1 (shapeCast S1x1 b shapeCasts_S1x1_S1x1) broadcasts_S1x1_S5000x1)

/-- The eight layers in order, on the blocks and weights the body loads. -/
def net (x : Vec F S5000x128 .f32) (a : FVec F S5000x1 .f32)
    (W1 : Vec F S256x129 .f32) (b1 : Vec F S1x256 .f32) (W2 : Vec F S256x257 .f32) (b2 : Vec F S1x256 .f32)
    (W3 : Vec F S256x257 .f32) (b3 : Vec F S1x256 .f32) (W4 : Vec F S256x257 .f32) (b4 : Vec F S1x256 .f32)
    (W5 : Vec F S256x257 .f32) (b5 : Vec F S1x256 .f32) (W6 : Vec F S256x257 .f32) (b6 : Vec F S1x256 .f32)
    (W7 : Vec F S256x256 .f32) (b7 : Vec F S1x256 .f32) (W8 : Vec F S1x256 .f32) (b8 : Vec F S1x1 .f32) :
    FVec F S5000x1 .f32 :=
  last (dense (mid (mid (mid (mid (mid (first x a W1 b1) a W2 b2) a W3 b3) a W4 b4) a W5 b5) a W6 b6) W7 b7) W8 b8

/-- The value the body stores is `net` of its loads (the aggregate block through its identity shape cast). -/
theorem stored_eq (x0 : Vec F S5000x128 .f32) (x1 : Vec F S5000x1 .f32) (x2 : Vec F S256x129 .f32) (x3 : Vec F S1x256 .f32)
    (x4 : Vec F S256x257 .f32) (x5 : Vec F S1x256 .f32) (x6 : Vec F S256x257 .f32) (x7 : Vec F S1x256 .f32)
    (x8 : Vec F S256x257 .f32) (x9 : Vec F S1x256 .f32) (x10 : Vec F S256x257 .f32) (x11 : Vec F S1x256 .f32)
    (x12 : Vec F S256x257 .f32) (x13 : Vec F S1x256 .f32) (x14 : Vec F S256x256 .f32) (x15 : Vec F S1x256 .f32)
    (x16 : Vec F S1x256 .f32) (x17 : Vec F S1x1 .f32) :
    k0_pay1 (k0_pay4 (k0_pay2 x1) (k0_pay3 x1 x0 x2 x3 x4 x5 x6 x7) x8 x9 x10 x11 x12 x13 x14 x15) x16 x17
      = net x0 (shapeCast S5000x1 x1 shapeCasts_S5000x1_S5000x1) x2 x3 x4 x5 x6 x7 x8 x9 x10 x11 x12 x13 x14 x15 x16 x17 :=
  rfl

end Cert.KernelIdeal.Layers

end
-- ==== Proof.RefLayers.lean ====
/-
  The reference as eight layers.

  On all 100000 nodes at once the reference computes `h₁ = max ([x | a] W₁ᵀ + b₁) 0`, five more layers
  `hᵢ₊₁ = max ([hᵢ | a] Wᵀ + b) 0`, one layer `h₇ = max (h₆ Wᵀ + b) 0` and the result `h₇ Wᵀ + b`, where `a` is the
  edge features summed onto their destination nodes.  The definitions below name these layers over the
  reference's own operations; its result is their composition.
-/
import proofs.«104368_j76192719831691_1_alg».proof.ReferenceIdeal
import proofs.«104368_j76192719831691_1_alg».proof.Proof.Gen.ReferenceIdeal

noncomputable section

namespace Cert.ReferenceIdeal.Layers

open Idealize.ShloMosaic Cert.ReferenceIdeal Cert.ReferenceIdeal.Gen

variable {F : FTy → Type} [FloatOps F]

/-- The edge features summed onto their destination nodes. -/
def aggregate (ef : FVec F S3200000x1 .f32) (dst : IVec S3200000 32) : FVec F S100000x1 .f32 :=
  Host.scatterAdd scatter_S100000x1_S3200000x1_S3200000x1_1_0_0_1
    (broadcastInDim S100000x1 ![] bcast_S_S100000x1 (constant S_ .f32 0x00000000#32))
    (broadcastInDim S3200000x1 ![0] bcast_S3200000_S3200000x1_0 dst) ef

/-- The first layer: 128 feature columns and the aggregate column against a 256 × 129 weight matrix. -/
def first (x : FVec F S100000x128 .f32) (a : FVec F S100000x1 .f32) (W : FVec F S256x129 .f32) (b : FVec F S256 .f32) :
    FVec F S100000x256 .f32 :=
  maximumf (addf (Host.dotGeneral dot_S100000x129_S129x256_S100000x256_1_0_0_1_n_n none
        (concatenate S100000x129 1 [⟨S100000x128, x⟩, ⟨S100000x1, a⟩] concatenates_S100000x128_S100000x1_S100000x129_d1)
        (transpose S129x256 [1, 0] W transposes_S256x129_S129x256_1_0))
      (broadcastInDim S100000x256 ![0, 1] bcast_S1x256_S100000x256_0_1 (broadcastInDim S1x256 ![1] bcast_S256_S1x256_1 b)))
    (broadcastInDim S100000x256 ![] bcast_S_S100000x256 (constant S_ .f32 0x00000000#32))

/-- A middle layer: 256 hidden columns and the aggregate column against a 256 × 257 weight matrix. -/
def mid (h : FVec F S100000x256 .f32) (a : FVec F S100000x1 .f32) (W : FVec F S256x257 .f32) (b : FVec F S256 .f32) :
    FVec F S100000x256 .f32 :=
  maximumf (addf (Host.dotGeneral dot_S100000x257_S257x256_S100000x256_1_0_0_1_n_n none
        (concatenate S100000x257 1 [⟨S100000x256, h⟩, ⟨S100000x1, a⟩] concatenates_S100000x256_S100000x1_S100000x257_d1)
        (transpose S257x256 [1, 0] W transposes_S256x257_S257x256_1_0))
      (broadcastInDim S100000x256 ![0, 1] bcast_S1x256_S100000x256_0_1 (broadcastInDim S1x256 ![1] bcast_S256_S1x256_1 b)))
    (broadcastInDim S100000x256 ![] bcast_S_S100000x256 (constant S_ .f32 0x00000000#32))

/-- The layer without the aggregate column: 256 hidden columns against a 256 × 256 weight matrix. -/
def dense (h : FVec F S100000x256 .f32) (W : FVec F S256x256 .f32) (b : FVec F S256 .f32) : FVec F S100000x256 .f32 :=
  maximumf (addf (Host.dotGeneral dot_S100000x256_S256x256_S100000x256_1_0_0_1_n_n none h
        (transpose S256x256 [1, 0] W transposes_S256x256_S256x256_1_0))
      (broadcastInDim S100000x256 ![0, 1] bcast_S1x256_S100000x256_0_1 (broadcastInDim S1x256 ![1] bcast_S256_S1x256_1 b)))
    (broadcastInDim S100000x256 ![] bcast_S_S100000x256 (constant S_ .f32 0x00000000#32))

/-- The last layer: one output column, not clamped. -/
def last (h : FVec F S100000x256 .f32) (W : FVec F S1x256 .f32) (b : FVec F S1 .f32) : FVec F S100000x1 .f32 :=
  addf (Host.dotGeneral dot_S100000x256_S256x1_S100000x1_1_0_0_1_n_n none h
      (transpose S256x1 [1, 0] W transposes_S1x256_S256x1_1_0))
    (broadcastInDim S100000x1 ![0, 1] bcast_S1x1_S100000x1_0_1 (broadcastInDim S1x1 ![1] bcast_S1_S1x1_1 b))

/-- The eight layers in order, on the whole arrays. -/
def net (x : FVec F S100000x128 .f32) (a : FVec F S100000x1 .f32)
    (W1 : FVec F S256x129 .f32) (b1 : FVec F S256 .f32) (W2 : FVec F S256x257 .f32) (b2 : FVec F S256 .f32)
    (W3 : FVec F S256x257 .f32) (b3 : FVec F S256 .f32) (W4 : FVec F S256x257 .f32) (b4 : FVec F S256 .f32)
    (W5 : FVec F S256x257 .f32) (b5 : FVec F S256 .f32) (W6 : FVec F S256x257 .f32) (b6 : FVec F S256 .f32)
    (W7 : FVec F S256x256 .f32) (b7 : FVec F S256 .f32) (W8 : FVec F S1x256 .f32) (b8 : FVec F S1 .f32) :
    FVec F S100000x1 .f32 :=
  last (dense (mid (mid (mid (mid (mid (first x a W1 b1) a W2 b2) a W3 b3) a W4 b4) a W5 b5) a W6 b6) W7 b7) W8 b8

end Cert.ReferenceIdeal.Layers

end
-- ==== Proof.Bridge.lean ====
/-
  The kernel's layers on a block of rows against the reference's layers on all rows.

  Let `e` send the 5000 rows of a block to rows of the 100000-row arrays.  If the block's feature rows and
  aggregate entries are those rows of the whole arrays, and each one-row bias the kernel loads holds the reference's
  bias vector, then row `p` of every layer computed on the block is row `e p` of the same layer computed on all
  rows, and so is the network's result.  The dimension numbers both programs print are the plain matrix product's.
-/
import proofs.«104368_j76192719831691_1_alg».proof.Proof.Layers
import proofs.«104368_j76192719831691_1_alg».proof.Proof.KernelLayers
import proofs.«104368_j76192719831691_1_alg».proof.Proof.RefLayers

noncomputable section

namespace Cert.Sage.Bridge

open Idealize.ShloMosaic Idealize.ShloMosaic.ValueIdx Cert.Sage

/-! ## The printed dimension numbers are the plain product's -/

theorem kdot_first : Cert.KernelIdeal.dot_S5000x129_S129x256_S5000x256_1_0_0_1_n_n = DotDims.plain 5000 129 256 := rfl
theorem kdot_mid : Cert.KernelIdeal.dot_S5000x257_S257x256_S5000x256_1_0_0_1_n_n = DotDims.plain 5000 257 256 := rfl
theorem kdot_dense : Cert.KernelIdeal.dot_S5000x256_S256x256_S5000x256_1_0_0_1_n_n = DotDims.plain 5000 256 256 := rfl
theorem kdot_last : Cert.KernelIdeal.dot_S5000x256_S256x1_S5000x1_1_0_0_1_n_n = DotDims.plain 5000 256 1 := rfl
theorem rdot_first : Cert.ReferenceIdeal.dot_S100000x129_S129x256_S100000x256_1_0_0_1_n_n = DotDims.plain 100000 129 256 := rfl
theorem rdot_mid : Cert.ReferenceIdeal.dot_S100000x257_S257x256_S100000x256_1_0_0_1_n_n = DotDims.plain 100000 257 256 := rfl
theorem rdot_dense : Cert.ReferenceIdeal.dot_S100000x256_S256x256_S100000x256_1_0_0_1_n_n = DotDims.plain 100000 256 256 := rfl
theorem rdot_last : Cert.ReferenceIdeal.dot_S100000x256_S256x1_S100000x1_1_0_0_1_n_n = DotDims.plain 100000 256 1 := rfl

/-! ## Layer by layer -/

variable (e : Fin 5000 → Fin 100000)

theorem first_rows (x : FVec Ideal ⟨2, ![5000, 128]⟩ .f32) (x' : FVec Ideal ⟨2, ![100000, 128]⟩ .f32)
    (a : FVec Ideal ⟨2, ![5000, 1]⟩ .f32) (a' : FVec Ideal ⟨2, ![100000, 1]⟩ .f32)
    (W : FVec Ideal ⟨2, ![256, 129]⟩ .f32) (b : FVec Ideal ⟨2, ![1, 256]⟩ .f32) (b' : FVec Ideal ⟨1, ![256]⟩ .f32)
    (hx : ∀ (p : Fin 5000) (k : Fin 128), x (ix2 p k) = x' (ix2 (e p) k))
    (ha : ∀ p : Fin 5000, a (ix2 p (0 : Fin 1)) = a' (ix2 (e p) (0 : Fin 1)))
    (hb : ∀ q : Fin 256, b (ix2 (0 : Fin 1) q) = b' (ix1 q)) (p : Fin 5000) (q : Fin 256) :
    Cert.KernelIdeal.Layers.first (F := Ideal) x a W b (ix2 p q) = Cert.ReferenceIdeal.Layers.first (F := Ideal) x' a' W b' (ix2 (e p) q) := by
  unfold Cert.KernelIdeal.Layers.first Cert.ReferenceIdeal.Layers.first
  rw [kdot_first, rdot_first]
  exact cat_layer_rows e rfl _ _ _ _ _ _ _ _ _ x x' a a' W b b' hx ha hb p q

theorem mid_rows (x : FVec Ideal ⟨2, ![5000, 256]⟩ .f32) (x' : FVec Ideal ⟨2, ![100000, 256]⟩ .f32)
    (a : FVec Ideal ⟨2, ![5000, 1]⟩ .f32) (a' : FVec Ideal ⟨2, ![100000, 1]⟩ .f32)
    (W : FVec Ideal ⟨2, ![256, 257]⟩ .f32) (b : FVec Ideal ⟨2, ![1, 256]⟩ .f32) (b' : FVec Ideal ⟨1, ![256]⟩ .f32)
    (hx : ∀ (p : Fin 5000) (k : Fin 256), x (ix2 p k) = x' (ix2 (e p) k))
    (ha : ∀ p : Fin 5000, a (ix2 p (0 : Fin 1)) = a' (ix2 (e p) (0 : Fin 1)))
    (hb : ∀ q : Fin 256, b (ix2 (0 : Fin 1) q) = b' (ix1 q)) (p : Fin 5000) (q : Fin 256) :
    Cert.KernelIdeal.Layers.mid (F := Ideal) x a W b (ix2 p q) = Cert.ReferenceIdeal.Layers.mid (F := Ideal) x' a' W b' (ix2 (e p) q) := by
  unfold Cert.KernelIdeal.Layers.mid Cert.ReferenceIdeal.Layers.mid
  rw [kdot_mid, rdot_mid]
  exact cat_layer_rows e rfl _ _ _ _ _ _ _ _ _ x x' a a' W b b' hx ha hb p q

theorem dense_rows (x : FVec Ideal ⟨2, ![5000, 256]⟩ .f32) (x' : FVec Ideal ⟨2, ![100000, 256]⟩ .f32)
    (W : FVec Ideal ⟨2, ![256, 256]⟩ .f32) (b : FVec Ideal ⟨2, ![1, 256]⟩ .f32) (b' : FVec Ideal ⟨1, ![256]⟩ .f32)
    (hx : ∀ (p : Fin 5000) (k : Fin 256), x (ix2 p k) = x' (ix2 (e p) k))
    (hb : ∀ q : Fin 256, b (ix2 (0 : Fin 1) q) = b' (ix1 q)) (p : Fin 5000) (q : Fin 256) :
    Cert.KernelIdeal.Layers.dense (F := Ideal) x W b (ix2 p q) = Cert.ReferenceIdeal.Layers.dense (F := Ideal) x' W b' (ix2 (e p) q) := by
  unfold Cert.KernelIdeal.Layers.dense Cert.ReferenceIdeal.Layers.dense
  rw [kdot_dense, rdot_dense]
  exact dense_layer_rows e _ _ _ _ _ _ _ x x' W b b' hx hb p q

theorem last_rows (x : FVec Ideal ⟨2, ![5000, 256]⟩ .f32) (x' : FVec Ideal ⟨2, ![100000, 256]⟩ .f32)
    (W : FVec Ideal ⟨2, ![1, 256]⟩ .f32) (b : FVec Ideal ⟨2, ![1, 1]⟩ .f32) (b' : FVec Ideal ⟨1, ![1]⟩ .f32)
    (hx : ∀ (p : Fin 5000) (k : Fin 256), x (ix2 p k) = x' (ix2 (e p) k))
    (hb : ∀ q : Fin 1, b (ix2 (0 : Fin 1) q) = b' (ix1 q)) (p : Fin 5000) (q : Fin 1) :
    Cert.KernelIdeal.Layers.last (F := Ideal) x W b (ix2 p q) = Cert.ReferenceIdeal.Layers.last (F := Ideal) x' W b' (ix2 (e p) q) := by
  unfold Cert.KernelIdeal.Layers.last Cert.ReferenceIdeal.Layers.last
  rw [kdot_last, rdot_last]
  exact out_layer_rows e _ _ _ _ _ _ x x' W b b' hx hb p q

/-! ## The network -/

/-- Row `p` of the network's result on a block is row `e p` of its result on all rows. -/
theorem net_rows (x : FVec Ideal ⟨2, ![5000, 128]⟩ .f32) (x' : FVec Ideal ⟨2, ![100000, 128]⟩ .f32)
    (a : FVec Ideal ⟨2, ![5000, 1]⟩ .f32) (a' : FVec Ideal ⟨2, ![100000, 1]⟩ .f32)
    (W1 : FVec Ideal ⟨2, ![256, 129]⟩ .f32) (b1 : FVec Ideal ⟨2, ![1, 256]⟩ .f32) (b1' : FVec Ideal ⟨1, ![256]⟩ .f32)
    (W2 : FVec Ideal ⟨2, ![256, 257]⟩ .f32) (b2 : FVec Ideal ⟨2, ![1, 256]⟩ .f32) (b2' : FVec Ideal ⟨1, ![256]⟩ .f32)
    (W3 : FVec Ideal ⟨2, ![256, 257]⟩ .f32) (b3 : FVec Ideal ⟨2, ![1, 256]⟩ .f32) (b3' : FVec Ideal ⟨1, ![256]⟩ .f32)
    (W4 : FVec Ideal ⟨2, ![256, 257]⟩ .f32) (b4 : FVec Ideal ⟨2, ![1, 256]⟩ .f32) (b4' : FVec Ideal ⟨1, ![256]⟩ .f32)
    (W5 : FVec Ideal ⟨2, ![256, 257]⟩ .f32) (b5 : FVec Ideal ⟨2, ![1, 256]⟩ .f32) (b5' : FVec Ideal ⟨1, ![256]⟩ .f32)
    (W6 : FVec Ideal ⟨2, ![256, 257]⟩ .f32) (b6 : FVec Ideal ⟨2, ![1, 256]⟩ .f32) (b6' : FVec Ideal ⟨1, ![256]⟩ .f32)
    (W7 : FVec Ideal ⟨2, ![256, 256]⟩ .f32) (b7 : FVec Ideal ⟨2, ![1, 256]⟩ .f32) (b7' : FVec Ideal ⟨1, ![256]⟩ .f32)
    (W8 : FVec Ideal ⟨2, ![1, 256]⟩ .f32) (b8 : FVec Ideal ⟨2, ![1, 1]⟩ .f32) (b8' : FVec Ideal ⟨1, ![1]⟩ .f32)
    (hx : ∀ (p : Fin 5000) (k : Fin 128), x (ix2 p k) = x' (ix2 (e p) k))
    (ha : ∀ p : Fin 5000, a (ix2 p (0 : Fin 1)) = a' (ix2 (e p) (0 : Fin 1)))
    (h1 : ∀ q : Fin 256, b1 (ix2 (0 : Fin 1) q) = b1' (ix1 q)) (h2 : ∀ q : Fin 256, b2 (ix2 (0 : Fin 1) q) = b2' (ix1 q))
    (h3 : ∀ q : Fin 256, b3 (ix2 (0 : Fin 1) q) = b3' (ix1 q)) (h4 : ∀ q : Fin 256, b4 (ix2 (0 : Fin 1) q) = b4' (ix1 q))
    (h5 : ∀ q : Fin 256, b5 (ix2 (0 : Fin 1) q) = b5' (ix1 q)) (h6 : ∀ q : Fin 256, b6 (ix2 (0 : Fin 1) q) = b6' (ix1 q))
    (h7 : ∀ q : Fin 256, b7 (ix2 (0 : Fin 1) q) = b7' (ix1 q)) (h8 : ∀ q : Fin 1, b8 (ix2 (0 : Fin 1) q) = b8' (ix1 q))
    (p : Fin 5000) (q : Fin 1) :
    Cert.KernelIdeal.Layers.net (F := Ideal) x a W1 b1 W2 b2 W3 b3 W4 b4 W5 b5 W6 b6 W7 b7 W8 b8 (ix2 p q)
      = Cert.ReferenceIdeal.Layers.net (F := Ideal) x' a' W1 b1' W2 b2' W3 b3' W4 b4' W5 b5' W6 b6' W7 b7' W8 b8' (ix2 (e p) q) := by
  unfold Cert.KernelIdeal.Layers.net Cert.ReferenceIdeal.Layers.net
  exact last_rows e _ _ W8 b8 b8' (dense_rows e _ _ W7 b7 b7' (mid_rows e _ _ a a' W6 b6 b6' (mid_rows e _ _ a a' W5 b5 b5'
    (mid_rows e _ _ a a' W4 b4 b4' (mid_rows e _ _ a a' W3 b3 b3' (mid_rows e _ _ a a' W2 b2 b2'
      (first_rows e x x' a a' W1 b1 b1' hx ha h1) ha h2) ha h3) ha h4) ha h5) ha h6) h7) h8 p q

/-! ## The stored value -/

/-- Row `p` of the value the body stores, over blocks whose rows are rows `e p` of the whole arrays, weight blocks
    that are the weight arrays and one-row bias blocks that hold the bias vectors, is row `e p` of the reference's
    network on the whole arrays. -/
theorem stored_rows (x0 : FVec Ideal ⟨2, ![5000, 128]⟩ .f32) (x1 : FVec Ideal ⟨2, ![5000, 1]⟩ .f32)
    (x2 : FVec Ideal ⟨2, ![256, 129]⟩ .f32) (x3 : FVec Ideal ⟨2, ![1, 256]⟩ .f32)
    (x4 : FVec Ideal ⟨2, ![256, 257]⟩ .f32) (x5 : FVec Ideal ⟨2, ![1, 256]⟩ .f32)
    (x6 : FVec Ideal ⟨2, ![256, 257]⟩ .f32) (x7 : FVec Ideal ⟨2, ![1, 256]⟩ .f32)
    (x8 : FVec Ideal ⟨2, ![256, 257]⟩ .f32) (x9 : FVec Ideal ⟨2, ![1, 256]⟩ .f32)
    (x10 : FVec Ideal ⟨2, ![256, 257]⟩ .f32) (x11 : FVec Ideal ⟨2, ![1, 256]⟩ .f32)
    (x12 : FVec Ideal ⟨2, ![256, 257]⟩ .f32) (x13 : FVec Ideal ⟨2, ![1, 256]⟩ .f32)
    (x14 : FVec Ideal ⟨2, ![256, 256]⟩ .f32) (x15 : FVec Ideal ⟨2, ![1, 256]⟩ .f32)
    (x16 : FVec Ideal ⟨2, ![1, 256]⟩ .f32) (x17 : FVec Ideal ⟨2, ![1, 1]⟩ .f32)
    (x' : FVec Ideal ⟨2, ![100000, 128]⟩ .f32) (a' : FVec Ideal ⟨2, ![100000, 1]⟩ .f32)
    (W1 : FVec Ideal ⟨2, ![256, 129]⟩ .f32) (b1 : FVec Ideal ⟨1, ![256]⟩ .f32)
    (W2 : FVec Ideal ⟨2, ![256, 257]⟩ .f32) (b2 : FVec Ideal ⟨1, ![256]⟩ .f32)
    (W3 : FVec Ideal ⟨2, ![256, 257]⟩ .f32) (b3 : FVec Ideal ⟨1, ![256]⟩ .f32)
    (W4 : FVec Ideal ⟨2, ![256, 257]⟩ .f32) (b4 : FVec Ideal ⟨1, ![256]⟩ .f32)
    (W5 : FVec Ideal ⟨2, ![256, 257]⟩ .f32) (b5 : FVec Ideal ⟨1, ![256]⟩ .f32)
    (W6 : FVec Ideal ⟨2, ![256, 257]⟩ .f32) (b6 : FVec Ideal ⟨1, ![256]⟩ .f32)
    (W7 : FVec Ideal ⟨2, ![256, 256]⟩ .f32) (b7 : FVec Ideal ⟨1, ![256]⟩ .f32)
    (W8 : FVec Ideal ⟨2, ![1, 256]⟩ .f32) (b8 : FVec Ideal ⟨1, ![1]⟩ .f32)
    (hx : ∀ (p : Fin 5000) (k : Fin 128), x0 (ix2 p k) = x' (ix2 (e p) k))
    (ha : ∀ p : Fin 5000, x1 (ix2 p (0 : Fin 1)) = a' (ix2 (e p) (0 : Fin 1)))
    (hW1 : x2 = W1) (h1 : ∀ q : Fin 256, x3 (ix2 (0 : Fin 1) q) = b1 (ix1 q))
    (hW2 : x4 = W2) (h2 : ∀ q : Fin 256, x5 (ix2 (0 : Fin 1) q) = b2 (ix1 q))
    (hW3 : x6 = W3) (h3 : ∀ q : Fin 256, x7 (ix2 (0 : Fin 1) q) = b3 (ix1 q))
    (hW4 : x8 = W4) (h4 : ∀ q : Fin 256, x9 (ix2 (0 : Fin 1) q) = b4 (ix1 q))
    (hW5 : x10 = W5) (h5 : ∀ q : Fin 256, x11 (ix2 (0 : Fin 1) q) = b5 (ix1 q))
    (hW6 : x12 = W6) (h6 : ∀ q : Fin 256, x13 (ix2 (0 : Fin 1) q) = b6 (ix1 q))
    (hW7 : x14 = W7) (h7 : ∀ q : Fin 256, x15 (ix2 (0 : Fin 1) q) = b7 (ix1 q))
    (hW8 : x16 = W8) (h8 : ∀ q : Fin 1, x17 (ix2 (0 : Fin 1) q) = b8 (ix1 q))
    (p : Fin 5000) (q : Fin 1) :
    Cert.KernelIdeal.Gen.k0_pay1 (F := Ideal) (Cert.KernelIdeal.Gen.k0_pay4 (Cert.KernelIdeal.Gen.k0_pay2 x1) (Cert.KernelIdeal.Gen.k0_pay3 x1 x0 x2 x3 x4 x5 x6 x7)
        x8 x9 x10 x11 x12 x13 x14 x15) x16 x17 (ix2 p q)
      = Cert.ReferenceIdeal.Layers.net (F := Ideal) x' a' W1 b1 W2 b2 W3 b3 W4 b4 W5 b5 W6 b6 W7 b7 W8 b8 (ix2 (e p) q) := by
  subst hW1 hW2 hW3 hW4 hW5 hW6 hW7 hW8
  rw [Cert.KernelIdeal.Layers.stored_eq]
  exact net_rows e x0 x' _ a' x2 x3 b1 x4 x5 b2 x6 x7 b3 x8 x9 b4 x10 x11 b5 x12 x13 b6 x14 x15 b7 x16 x17 b8 hx
    (fun p => by rw [shapeCast_self]; exact ha p) h1 h2 h3 h4 h5 h6 h7 h8 p q

end Cert.Sage.Bridge

end
-- ==== Proof.KernelValue.lean ====
/-
  What the kernel's result array holds after the run.

  The grid has 20 points; point `t` works on rows `5000 t … 5000 t + 4999`: its blocks of the node features, of
  the aggregated edge feature and of the result are those rows, every weight window's block is the whole weight
  array, and every bias window's one-row block holds the bias vector (the host reshapes it to one row before the
  call).  The aggregate the kernel reads is the scatter-add the host computes before the call, the same operation
  the reference starts with.  So point `t` writes back rows `5000 t …` of the reference's network evaluated on the
  whole argument arrays, the 20 blocks cover the result array, and the array ends holding that network.
-/
import proofs.«104368_j76192719831691_1_alg».proof.Proof.Gen.KernelIdeal.Value
import proofs.«104368_j76192719831691_1_alg».proof.Proof.Bridge
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## Where the windows sit at a grid point -/

/-- The row windows (features, aggregate, result) sit at block row `t`, block column 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0 :=
  (by decide +kernel : ∀ t : Fin grid0.N, _)

/-- Every weight and bias window sits at block (0, 0) at every point. -/
theorem idx_fixed : ∀ (t : Fin cfg0.N) (a : Fin 2),
    win0_2.index t a = 0 ∧ win0_3.index t a = 0 ∧ win0_4.index t a = 0 ∧ win0_5.index t a = 0
    ∧ win0_6.index t a = 0 ∧ win0_7.index t a = 0 ∧ win0_8.index t a = 0 ∧ win0_9.index t a = 0
    ∧ win0_10.index t a = 0 ∧ win0_11.index t a = 0 ∧ win0_12.index t a = 0 ∧ win0_13.index t a = 0
    ∧ win0_14.index t a = 0 ∧ win0_15.index t a = 0 ∧ win0_16.index t a = 0 ∧ win0_17.index t a = 0 :=
  (by decide +kernel : ∀ (t : Fin grid0.N) (a : Fin 2), _)

/-- The row of the whole arrays that row `p` of point `t`'s blocks is. -/
def rowOf (t : Fin cfg0.N) (p : Fin 5000) : Fin 100000 :=
  ⟨5000 * t.val + p.val, by have h1 : t.val < 20 := Nat.lt_of_lt_of_eq t.isLt N_0
                            have := p.isLt; omega⟩

/-! ## What the host computes before the call -/

/-- The aggregate array the kernel's second window reads: the edge features summed onto their destination nodes. -/
theorem V_aggregate (c : Dev nD) : (V m c main_v2 : S100000x1.Idx → EReal)
    = Cert.ReferenceIdeal.Layers.aggregate (F := Ideal) (m ((c : Thread nD τ).loc main_arg1)) (m ((c : Thread nD τ).loc main_arg2)) := by
  dsimp only [Gen.V, Gen.hostOps0]; after_results; rfl

/-- Each bias vector as the one-row array (one-entry array for the last) its window reads. -/
theorem V_bias1 (c : Dev nD) : (V m c main_v3 : S1x256.Idx → EReal) = shapeCast S1x256 (m ((c : Thread nD τ).loc main_arg4)) shapeCasts_S256_S1x256 := by
  dsimp only [Gen.V, Gen.hostOps0]; after_results; rfl
theorem V_bias2 (c : Dev nD) : (V m c main_v4 : S1x256.Idx → EReal) = shapeCast S1x256 (m ((c : Thread nD τ).loc main_arg6)) shapeCasts_S256_S1x256 := by
  dsimp only [Gen.V, Gen.hostOps0]; after_results; rfl
theorem V_bias3 (c : Dev nD) : (V m c main_v5 : S1x256.Idx → EReal) = shapeCast S1x256 (m ((c : Thread nD τ).loc main_arg8)) shapeCasts_S256_S1x256 := by
  dsimp only [Gen.V, Gen.hostOps0]; after_results; rfl
theorem V_bias4 (c : Dev nD) : (V m c main_v6 : S1x256.Idx → EReal) = shapeCast S1x256 (m ((c : Thread nD τ).loc main_arg10)) shapeCasts_S256_S1x256 := by
  dsimp only [Gen.V, Gen.hostOps0]; after_results; rfl
theorem V_bias5 (c : Dev nD) : (V m c main_v7 : S1x256.Idx → EReal) = shapeCast S1x256 (m ((c : Thread nD τ).loc main_arg12)) shapeCasts_S256_S1x256 := by
  dsimp only [Gen.V, Gen.hostOps0]; after_results; rfl
theorem V_bias6 (c : Dev nD) : (V m c main_v8 : S1x256.Idx → EReal) = shapeCast S1x256 (m ((c : Thread nD τ).loc main_arg14)) shapeCasts_S256_S1x256 := by
  dsimp only [Gen.V, Gen.hostOps0]; after_results; rfl
theorem V_bias7 (c : Dev nD) : (V m c main_v9 : S1x256.Idx → EReal) = shapeCast S1x256 (m ((c : Thread nD τ).loc main_arg16)) shapeCasts_S256_S1x256 := by
  dsimp only [Gen.V, Gen.hostOps0]; after_results; rfl
theorem V_bias8 (c : Dev nD) : (V m c main_v10 : S1x1.Idx → EReal) = shapeCast S1x1 (m ((c : Thread nD τ).loc main_arg18)) shapeCasts_S1_S1x1 := by
  dsimp only [Gen.V, Gen.hostOps0]; after_results; rfl

/-- A vector of `n` entries recast as one row, read at `(0, q)`, is the vector at `q`. -/
theorem row_of_vector {n : Nat} (b : (⟨1, ![n]⟩ : Shape).Idx → EReal) (hs : (⟨1, ![n]⟩ : Shape).ShapeCasts ⟨2, ![1, n]⟩) (q : Fin n) :
    shapeCast ⟨2, ![1, n]⟩ b hs (ix2 (0 : Fin 1) q) = b (ix1 q) := by
  refine shapeCast_apply _ _ _ (ix1 q) ?_
  rw [Shape.rowMajor_val_two, Shape.rowMajor_val_one]
  show q.val = 0 * n + q.val
  omega

/-! ## The blocks at a point -/

/-- The feature block at point `t`: rows `5000 t …` of the node features. -/
theorem xblk_apply (c : Dev nD) (t : Fin cfg0.N) (p : Fin 5000) (k : Fin 128) :
    (iblk m c 0 t : Vec Ideal S5000x128 .f32) (ix2 p k)
      = (m ((c : Thread nD τ).loc main_arg0) : S100000x128.Idx → EReal) (ix2 (rowOf t p) k) := by
  obtain ⟨e0, e1, -⟩ := idx_rows t
  unfold iblk
  rw [View.read_apply]
  show V m c main_arg0 _ = m (c.tc.loc main_arg0) _
  rw [V_main_arg0 m c]
  refine congrArg _ ?_
  funext a
  apply Fin.ext
  match a with
  | ⟨0, _⟩ => show win0_0.index t 0 * 5000 + 1 * p.val = 5000 * t.val + p.val; rw [e0]; omega
  | ⟨1, _⟩ => show win0_0.index t 1 * 128 + 1 * k.val = k.val; rw [e1]; omega

/-- Reading any array through window 1's block at point `t`: rows `5000 t …` of the array. -/
theorem read_rows1 (t : Fin cfg0.N) (A : S100000x1.Idx → EReal) (p : Fin 5000) :
    ((cfg0.win 1).blk t).view.read (Elt Ideal) A (ix2 p (0 : Fin 1)) = A (ix2 (rowOf t p) (0 : Fin 1)) := by
  obtain ⟨-, -, e0, e1, -⟩ := idx_rows t
  rewrite [View.read_apply]
  refine congrArg A ?_
  funext a
  apply Fin.ext
  match a with
  | ⟨0, _⟩ => show win0_1.index t 0 * 5000 + 1 * p.val = 5000 * t.val + p.val; rw [e0]; omega
  | ⟨1, _⟩ => show win0_1.index t 1 * 1 + 1 * 0 = 0; rw [e1]

/-- The aggregate block at point `t` is the aggregate read through window 1's block. -/
theorem ablk_eq (c : Dev nD) (t : Fin cfg0.N) :
    (iblk m c 1 t : Vec Ideal S5000x1 .f32)
      = ((cfg0.win 1).blk t).view.read (Elt Ideal)
          (Cert.ReferenceIdeal.Layers.aggregate (F := Ideal) (m ((c : Thread nD τ).loc main_arg1)) (m ((c : Thread nD τ).loc main_arg2))) :=
  congrArg (((cfg0.win 1).blk t).view.read (Elt Ideal)) (V_aggregate m c)

/-- The aggregate block at point `t`: rows `5000 t …` of the aggregate. -/
theorem ablk_apply (c : Dev nD) (t : Fin cfg0.N) (p : Fin 5000) :
    (iblk m c 1 t : Vec Ideal S5000x1 .f32) (ix2 p (0 : Fin 1))
      = Cert.ReferenceIdeal.Layers.aggregate (F := Ideal) (m ((c : Thread nD τ).loc main_arg1)) (m ((c : Thread nD τ).loc main_arg2))
          (ix2 (rowOf t p) (0 : Fin 1)) :=
  (congrFun (ablk_eq m c t) (ix2 p (0 : Fin 1))).trans (read_rows1 t _ p)

/-- Entry `(p, q)` of the result window's block at point `t` is entry `(5000 t + p, q)` of the result array. -/
theorem oblk_emb (t : Fin cfg0.N) (p : Fin 5000) (q : Fin 1) :
    ((cfg0.win 18).blk t).view.emb (ix2 p q) = (ix2 (rowOf t p) q : S100000x1.Idx) := by
  obtain ⟨-, -, -, -, e0, e1⟩ := idx_rows t
  funext a
  apply Fin.ext
  match a with
  | ⟨0, _⟩ => show win0_18.index t 0 * 5000 + 1 * p.val = 5000 * t.val + p.val; rw [e0]; omega
  | ⟨1, _⟩ => show win0_18.index t 1 * 1 + 1 * q.val = q.val; rw [e1]; omega

/-! A window that sits at block (0, 0) and is as large as its array reads the whole array: the eight weight windows. -/

theorem W1blk (c : Dev nD) (t : Fin cfg0.N) : (iblk m c 2 t : Vec Ideal S256x129 .f32) = m ((c : Thread nD τ).loc main_arg3) := by
  have h0 : (fun a => win0_2.index t a * main_arg3.ty.shape.size a) = fun _ => 0 := funext fun a => by rw [(idx_fixed t a).1, Nat.zero_mul]
  exact (Memref.read_access_unit_zero (Elt Ideal) main_arg3 h0 (fun a => by rw [congrFun h0 a]; simp) (V m c main_arg3)).trans (V_main_arg3 m c)
theorem W2blk (c : Dev nD) (t : Fin cfg0.N) : (iblk m c 4 t : Vec Ideal S256x257 .f32) = m ((c : Thread nD τ).loc main_arg5) := by
  have h0 : (fun a => win0_4.index t a * main_arg5.ty.shape.size a) = fun _ => 0 := funext fun a => by rw [(idx_fixed t a).2.2.1, Nat.zero_mul]
  exact (Memref.read_access_unit_zero (Elt Ideal) main_arg5 h0 (fun a => by rw [congrFun h0 a]; simp) (V m c main_arg5)).trans (V_main_arg5 m c)
theorem W3blk (c : Dev nD) (t : Fin cfg0.N) : (iblk m c 6 t : Vec Ideal S256x257 .f32) = m ((c : Thread nD τ).loc main_arg7) := by
  have h0 : (fun a => win0_6.index t a * main_arg7.ty.shape.size a) = fun _ => 0 := funext fun a => by rw [(idx_fixed t a).2.2.2.2.1, Nat.zero_mul]
  exact (Memref.read_access_unit_zero (Elt Ideal) main_arg7 h0 (fun a => by rw [congrFun h0 a]; simp) (V m c main_arg7)).trans (V_main_arg7 m c)
theorem W4blk (c : Dev nD) (t : Fin cfg0.N) : (iblk m c 8 t : Vec Ideal S256x257 .f32) = m ((c : Thread nD τ).loc main_arg9) := by
  have h0 : (fun a => win0_8.index t a * main_arg9.ty.shape.size a) = fun _ => 0 := funext fun a => by rw [(idx_fixed t a).2.2.2.2.2.2.1, Nat.zero_mul]
  exact (Memref.read_access_unit_zero (Elt Ideal) main_arg9 h0 (fun a => by rw [congrFun h0 a]; simp) (V m c main_arg9)).trans (V_main_arg9 m c)
theorem W5blk (c : Dev nD) (t : Fin cfg0.N) : (iblk m c 10 t : Vec Ideal S256x257 .f32) = m ((c : Thread nD τ).loc main_arg11) := by
  have h0 : (fun a => win0_10.index t a * main_arg11.ty.shape.size a) = fun _ => 0 := funext fun a => by rw [(idx_fixed t a).2.2.2.2.2.2.2.2.1, Nat.zero_mul]
  exact (Memref.read_access_unit_zero (Elt Ideal) main_arg11 h0 (fun a => by rw [congrFun h0 a]; simp) (V m c main_arg11)).trans (V_main_arg11 m c)
theorem W6blk (c : Dev nD) (t : Fin cfg0.N) : (iblk m c 12 t : Vec Ideal S256x257 .f32) = m ((c : Thread nD τ).loc main_arg13) := by
  have h0 : (fun a => win0_12.index t a * main_arg13.ty.shape.size a) = fun _ => 0 := funext fun a => by rw [(idx_fixed t a).2.2.2.2.2.2.2.2.2.2.1, Nat.zero_mul]
  exact (Memref.read_access_unit_zero (Elt Ideal) main_arg13 h0 (fun a => by rw [congrFun h0 a]; simp) (V m c main_arg13)).trans (V_main_arg13 m c)
theorem W7blk (c : Dev nD) (t : Fin cfg0.N) : (iblk m c 14 t : Vec Ideal S256x256 .f32) = m ((c : Thread nD τ).loc main_arg15) := by
  have h0 : (fun a => win0_14.index t a * main_arg15.ty.shape.size a) = fun _ => 0 := funext fun a => by rw [(idx_fixed t a).2.2.2.2.2.2.2.2.2.2.2.2.1, Nat.zero_mul]
  exact (Memref.read_access_unit_zero (Elt Ideal) main_arg15 h0 (fun a => by rw [congrFun h0 a]; simp) (V m c main_arg15)).trans (V_main_arg15 m c)
theorem W8blk (c : Dev nD) (t : Fin cfg0.N) : (iblk m c 16 t : Vec Ideal S1x256 .f32) = m ((c : Thread nD τ).loc main_arg17) := by
  have h0 : (fun a => win0_16.index t a * main_arg17.ty.shape.size a) = fun _ => 0 := funext fun a => by rw [(idx_fixed t a).2.2.2.2.2.2.2.2.2.2.2.2.2.2.1, Nat.zero_mul]
  exact (Memref.read_access_unit_zero (Elt Ideal) main_arg17 h0 (fun a => by rw [congrFun h0 a]; simp) (V m c main_arg17)).trans (V_main_arg17 m c)

/-! Likewise each bias window's block is its whole one-row array, which holds the bias vector. -/

theorem b1blk (c : Dev nD) (t : Fin cfg0.N) (q : Fin 256) :
    (iblk m c 3 t : Vec Ideal S1x256 .f32) (ix2 (0 : Fin 1) q) = (m ((c : Thread nD τ).loc main_arg4) : S256.Idx → EReal) (ix1 q) := by
  have h0 : (fun a => win0_3.index t a * main_v3.ty.shape.size a) = fun _ => 0 := funext fun a => by rw [(idx_fixed t a).2.1, Nat.zero_mul]
  rw [show (iblk m c 3 t : Vec Ideal S1x256 .f32) = V m c main_v3 from
    Memref.read_access_unit_zero (Elt Ideal) main_v3 h0 (fun a => by rw [congrFun h0 a]; simp) (V m c main_v3), V_bias1 m c]
  exact row_of_vector _ _ q
theorem b2blk (c : Dev nD) (t : Fin cfg0.N) (q : Fin 256) :
    (iblk m c 5 t : Vec Ideal S1x256 .f32) (ix2 (0 : Fin 1) q) = (m ((c : Thread nD τ).loc main_arg6) : S256.Idx → EReal) (ix1 q) := by
  have h0 : (fun a => win0_5.index t a * main_v4.ty.shape.size a) = fun _ => 0 := funext fun a => by rw [(idx_fixed t a).2.2.2.1, Nat.zero_mul]
  rw [show (iblk m c 5 t : Vec Ideal S1x256 .f32) = V m c main_v4 from
    Memref.read_access_unit_zero (Elt Ideal) main_v4 h0 (fun a => by rw [congrFun h0 a]; simp) (V m c main_v4), V_bias2 m c]
  exact row_of_vector _ _ q
theorem b3blk (c : Dev nD) (t : Fin cfg0.N) (q : Fin 256) :
    (iblk m c 7 t : Vec Ideal S1x256 .f32) (ix2 (0 : Fin 1) q) = (m ((c : Thread nD τ).loc main_arg8) : S256.Idx → EReal) (ix1 q) := by
  have h0 : (fun a => win0_7.index t a * main_v5.ty.shape.size a) = fun _ => 0 := funext fun a => by rw [(idx_fixed t a).2.2.2.2.2.1, Nat.zero_mul]
  rw [show (iblk m c 7 t : Vec Ideal S1x256 .f32) = V m c main_v5 from
    Memref.read_access_unit_zero (Elt Ideal) main_v5 h0 (fun a => by rw [congrFun h0 a]; simp) (V m c main_v5), V_bias3 m c]
  exact row_of_vector _ _ q
theorem b4blk (c : Dev nD) (t : Fin cfg0.N) (q : Fin 256) :
    (iblk m c 9 t : Vec Ideal S1x256 .f32) (ix2 (0 : Fin 1) q) = (m ((c : Thread nD τ).loc main_arg10) : S256.Idx → EReal) (ix1 q) := by
  have h0 : (fun a => win0_9.index t a * main_v6.ty.shape.size a) = fun _ => 0 := funext fun a => by rw [(idx_fixed t a).2.2.2.2.2.2.2.1, Nat.zero_mul]
  rw [show (iblk m c 9 t : Vec Ideal S1x256 .f32) = V m c main_v6 from
    Memref.read_access_unit_zero (Elt Ideal) main_v6 h0 (fun a => by rw [congrFun h0 a]; simp) (V m c main_v6), V_bias4 m c]
  exact row_of_vector _ _ q
theorem b5blk (c : Dev nD) (t : Fin cfg0.N) (q : Fin 256) :
    (iblk m c 11 t : Vec Ideal S1x256 .f32) (ix2 (0 : Fin 1) q) = (m ((c : Thread nD τ).loc main_arg12) : S256.Idx → EReal) (ix1 q) := by
  have h0 : (fun a => win0_11.index t a * main_v7.ty.shape.size a) = fun _ => 0 := funext fun a => by rw [(idx_fixed t a).2.2.2.2.2.2.2.2.2.1, Nat.zero_mul]
  rw [show (iblk m c 11 t : Vec Ideal S1x256 .f32) = V m c main_v7 from
    Memref.read_access_unit_zero (Elt Ideal) main_v7 h0 (fun a => by rw [congrFun h0 a]; simp) (V m c main_v7), V_bias5 m c]
  exact row_of_vector _ _ q
theorem b6blk (c : Dev nD) (t : Fin cfg0.N) (q : Fin 256) :
    (iblk m c 13 t : Vec Ideal S1x256 .f32) (ix2 (0 : Fin 1) q) = (m ((c : Thread nD τ).loc main_arg14) : S256.Idx → EReal) (ix1 q) := by
  have h0 : (fun a => win0_13.index t a * main_v8.ty.shape.size a) = fun _ => 0 := funext fun a => by rw [(idx_fixed t a).2.2.2.2.2.2.2.2.2.2.2.1, Nat.zero_mul]
  rw [show (iblk m c 13 t : Vec Ideal S1x256 .f32) = V m c main_v8 from
    Memref.read_access_unit_zero (Elt Ideal) main_v8 h0 (fun a => by rw [congrFun h0 a]; simp) (V m c main_v8), V_bias6 m c]
  exact row_of_vector _ _ q
theorem b7blk (c : Dev nD) (t : Fin cfg0.N) (q : Fin 256) :
    (iblk m c 15 t : Vec Ideal S1x256 .f32) (ix2 (0 : Fin 1) q) = (m ((c : Thread nD τ).loc main_arg16) : S256.Idx → EReal) (ix1 q) := by
  have h0 : (fun a => win0_15.index t a * main_v9.ty.shape.size a) = fun _ => 0 := funext fun a => by rw [(idx_fixed t a).2.2.2.2.2.2.2.2.2.2.2.2.2.1, Nat.zero_mul]
  rw [show (iblk m c 15 t : Vec Ideal S1x256 .f32) = V m c main_v9 from
    Memref.read_access_unit_zero (Elt Ideal) main_v9 h0 (fun a => by rw [congrFun h0 a]; simp) (V m c main_v9), V_bias7 m c]
  exact row_of_vector _ _ q
theorem b8blk (c : Dev nD) (t : Fin cfg0.N) (q : Fin 1) :
    (iblk m c 17 t : Vec Ideal S1x1 .f32) (ix2 (0 : Fin 1) q) = (m ((c : Thread nD τ).loc main_arg18) : S1.Idx → EReal) (ix1 q) := by
  have h0 : (fun a => win0_17.index t a * main_v10.ty.shape.size a) = fun _ => 0 := funext fun a => by rw [(idx_fixed t a).2.2.2.2.2.2.2.2.2.2.2.2.2.2.2, Nat.zero_mul]
  rw [show (iblk m c 17 t : Vec Ideal S1x1 .f32) = V m c main_v10 from
    Memref.read_access_unit_zero (Elt Ideal) main_v10 h0 (fun a => by rw [congrFun h0 a]; simp) (V m c main_v10), V_bias8 m c]
  exact row_of_vector _ _ q

/-! ## The result array -/

-- the two networks are compared layer by layer (the lemmas imported above), never by evaluating them at an index
attribute [local irreducible] Cert.ReferenceIdeal.Layers.aggregate Cert.ReferenceIdeal.Layers.net Cert.KernelIdeal.Layers.net

/-- The reference's network evaluated on the kernel's argument arrays. -/
def result (c : Dev nD) : Buf (Elt Ideal) ((c : Thread nD τ).loc main_v11) :=
  Cert.ReferenceIdeal.Layers.net (F := Ideal) (m ((c : Thread nD τ).loc main_arg0))
    (Cert.ReferenceIdeal.Layers.aggregate (F := Ideal) (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))
    (m ((c : Thread nD τ).loc main_arg7)) (m ((c : Thread nD τ).loc main_arg8))
    (m ((c : Thread nD τ).loc main_arg9)) (m ((c : Thread nD τ).loc main_arg10))
    (m ((c : Thread nD τ).loc main_arg11)) (m ((c : Thread nD τ).loc main_arg12))
    (m ((c : Thread nD τ).loc main_arg13)) (m ((c : Thread nD τ).loc main_arg14))
    (m ((c : Thread nD τ).loc main_arg15)) (m ((c : Thread nD τ).loc main_arg16))
    (m ((c : Thread nD τ).loc main_arg17)) (m ((c : Thread nD τ).loc main_arg18))

/-- Row `p` of what the body stores at point `t` is row `5000 t + p` of `result`. -/
theorem stored_at (c : Dev nD) (t : Fin cfg0.N) (p : Fin 5000) (q : Fin 1) :
    out0_18 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t)
        (iblk m c 16 t) (iblk m c 17 t) (ix2 p q)
      = result m c (ix2 (rowOf t p) q) := by
  unfold out0_18
  rewrite [View.canon_unit_zero hz]
  simp only [View.ld_unit_zero (S := S5000x128) hz, View.ld_unit_zero (S := S5000x1) hz, View.ld_unit_zero (S := S256x129) hz,
    View.ld_unit_zero (S := S1x256) hz, View.ld_unit_zero (S := S256x257) hz, View.ld_unit_zero (S := S256x256) hz,
    View.ld_unit_zero (S := S1x1) hz]
  unfold result
  exact Cert.Sage.Bridge.stored_rows (rowOf t) _ _ _ _ _ _ _ _ _ _ _ _ _ _ _ _ _ _ _ _ _ _ _ _ _ _ _ _ _ _ _ _ _ _ _ _
    (xblk_apply m c t) (ablk_apply m c t)
    (W1blk m c t) (b1blk m c t) (W2blk m c t) (b2blk m c t) (W3blk m c t) (b3blk m c t) (W4blk m c t) (b4blk m c t)
    (W5blk m c t) (b5blk m c t) (W6blk m c t) (b6blk m c t) (W7blk m c t) (b7blk m c t) (W8blk m c t) (b8blk m c t) p q

/-- A block of 5000 rows whose row `p` is row `5000 t + p` of an array is that array read through the result
    window's block at point `t`. -/
theorem write_rows (t : Fin cfg0.N) (S : Vec Ideal S5000x1 .f32) (A : S100000x1.Idx → EReal)
    (h : ∀ (p : Fin 5000) (q : Fin 1), S (ix2 p q) = A (ix2 (rowOf t p) q)) :
    (cfg0.win 18).cut (grid0.coords t) S = ((cfg0.win 18).blk t).view.read (Elt Ideal) A := by
  funext j
  obtain ⟨p, q, rfl⟩ : ∃ (p : Fin 5000) (q : Fin 1), j = ix2 p q := ⟨j 0, j 1, eq_ix2 j⟩
  rewrite [View.read_apply, oblk_emb t p q]
  exact h p q

/-- Point `t` writes back rows `5000 t …` of `result`. -/
theorem flushed_eq (c : Dev nD) (t : Fin cfg0.N) :
    (dats m 0 c).flushed 18 t = ((cfg0.win 18).blk t).view.read (Elt Ideal) (result m c) :=
  (flushed18 m c t).trans (write_rows t _ _ (stored_at m c t))

/-- An index of the result array is in point `t`'s block iff each coordinate is in the block's range on its axis. -/
theorem mem_blk (t : Fin cfg0.N) (i : S100000x1.Idx) :
    i ∈ ((cfg0.win 18).blk t).view.set ↔ ∀ a : Fin 2, win0_18.index t a * S5000x1.size a ≤ (i a).val ∧ (i a).val < win0_18.index t a * S5000x1.size a + S5000x1.size a := by
  show i ∈ ((View.whole main_v11).slice (win0_18.rect t)).set ↔ _
  rw [View.set_slice_whole, Rect.mem_set_unit]
  exact Iff.rfl

/-- Row `r` of the result array is in the block of point `r / 5000`: the 20 blocks cover the array. -/
theorem covered (i : S100000x1.Idx) : ∃ t : Fin cfg0.N, (cfg0.win 18).flush t = true ∧ i ∈ ((cfg0.win 18).blk t).view.set := by
  have hi0 : (i 0).val < 100000 := (i 0).isLt
  have hi1 : (i 1).val < 1 := (i 1).isLt
  have hN : cfg0.N = 20 := N_0
  have ht : (i 0).val / 5000 < cfg0.N := by rw [hN]; omega
  obtain ⟨-, -, -, -, e0, e1⟩ := idx_rows ⟨(i 0).val / 5000, ht⟩
  refine ⟨⟨(i 0).val / 5000, ht⟩, flush0_18 _, ?_⟩
  rw [mem_blk]
  intro a
  match a with
  | ⟨0, _⟩ =>
    show win0_18.index ⟨(i 0).val / 5000, ht⟩ 0 * 5000 ≤ (i 0).val ∧ (i 0).val < win0_18.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_18.index ⟨(i 0).val / 5000, ht⟩ 1 * 1 ≤ (i 1).val ∧ (i 1).val < win0_18.index ⟨(i 0).val / 5000, ht⟩ 1 * 1 + 1
    rw [e1]
    omega

/-- The result array ends holding `result`. -/
theorem final (c : Dev nD) : (dats m 0 c).arrAt 18 cfg0.N = result m c :=
  (dats m 0 c).arrAt_eq_of_cover 18 (result m c) (fun t _ => flushed_eq m c t) covered

/-- The run, read: the result array at the reference's network of the argument arrays, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun _ h c => ⟨(h c).1.trans (final m c), (h c).2⟩) (Cert.KernelIdeal.Value.run_blocks m ρ)

end Cert.KernelIdeal.Hand

end
-- ==== Proof.RefValue.lean ====
/-
  The reference's result as the eight layers of its arguments.

  The composed term of the reference's host operations is, operation for operation, the network of
  RefLayers.lean applied to the argument arrays, with the aggregate the scatter-add of the edge features.
-/
import proofs.«104368_j76192719831691_1_alg».proof.Proof.RefRun
import proofs.«104368_j76192719831691_1_alg».proof.Proof.RefLayers

noncomputable section

namespace Cert.ReferenceIdeal.Hand

open Idealize.ShloMosaic Idealize.ShloMosaic.TcCoe Cert.ReferenceIdeal Cert.ReferenceIdeal.Gen

variable {F : FTy → Type} [FloatOps F]

set_option maxRecDepth 8192 in
/-- The reference's result array is the network of its argument arrays. -/
theorem res_eq (m : (ℓ : Loc nD τ sig) → Buf (Elt F) ℓ) (c : Dev nD) :
    Cert.ReferenceIdeal.RunCopy.res_main_v55 m c
      = Layers.net (F := F) (m ((c.tc : Thread nD τ).loc main_arg0))
          (Layers.aggregate (F := F) (m ((c.tc : Thread nD τ).loc main_arg1)) (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14))
          (m ((c.tc : Thread nD τ).loc main_arg15)) (m ((c.tc : Thread nD τ).loc main_arg16))
          (m ((c.tc : Thread nD τ).loc main_arg17)) (m ((c.tc : Thread nD τ).loc main_arg18)) := by
  unfold Cert.ReferenceIdeal.RunCopy.res_main_v55
  rfl

end Cert.ReferenceIdeal.Hand

end
-- ==== Proof.lean ====
/-
  The certificate of `Cert.Claim` for an eight-layer network on a graph's nodes.

  Both programs first sum the edge features onto their destination nodes (the same host scatter-add), then apply to
  every node's row eight dense layers: six that append the node's aggregate to the row before multiplying by the
  transposed weights, one plain one, all clamped at zero, and a last one that is not.  The reference applies the
  layers to all 100000 rows at once; the kernel applies them to 20 blocks of 5000 rows, one per grid point, with all
  weights resident.  A layer's row depends on that row of its input only, so the kernel's block `t` is rows
  `5000 t …` of the reference's result (Proof/Layers.lean, Proof/Bridge.lean), the blocks cover the result array
  (Proof/KernelValue.lean), and the reference's result is the same network of its arguments (Proof/RefRun.lean, the reference's run, and
  Proof/RefValue.lean).
  The two sides add up the same products in the same order, so no law of the extended reals is needed and the
  precondition is not used.  The ideal pass rewrote nothing, so `preserves` is `True`; the frames are the generated
  ones, the reference's its run with the result dropped.
-/
import proofs.«104368_j76192719831691_1_alg».proof.Defs
import proofs.«104368_j76192719831691_1_alg».proof.Proof.Gen.Kernel
import proofs.«104368_j76192719831691_1_alg».proof.Proof.Gen.Kernel.Skeleton
import proofs.«104368_j76192719831691_1_alg».proof.Proof.Gen.Kernel.Launch
import proofs.«104368_j76192719831691_1_alg».proof.Proof.Gen.Kernel.Points
import proofs.«104368_j76192719831691_1_alg».proof.Proof.Gen.Kernel.Frame
import proofs.«104368_j76192719831691_1_alg».proof.Proof.Gen.KernelIdeal
import proofs.«104368_j76192719831691_1_alg».proof.Proof.Gen.KernelIdeal.Skeleton
import proofs.«104368_j76192719831691_1_alg».proof.Proof.Gen.KernelIdeal.Launch
import proofs.«104368_j76192719831691_1_alg».proof.Proof.Gen.KernelIdeal.Points
import proofs.«104368_j76192719831691_1_alg».proof.Proof.Gen.KernelIdeal.Frame
import proofs.«104368_j76192719831691_1_alg».proof.Proof.Gen.ReferenceIdeal
import proofs.«104368_j76192719831691_1_alg».proof.Proof.Gen.Pre_finite_inputs
import proofs.«104368_j76192719831691_1_alg».proof.Proof.Gen.KernelIdeal.Value
import proofs.«104368_j76192719831691_1_alg».proof.Proof.KernelValue
import proofs.«104368_j76192719831691_1_alg».proof.Proof.RefRun
import proofs.«104368_j76192719831691_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunCopy.run (F := Ideal) m ρ)

-- the two results are one term of the arguments once the arguments' agreement is rewritten: nothing is evaluated
attribute [local irreducible] Cert.ReferenceIdeal.Layers.aggregate Cert.ReferenceIdeal.Layers.net

/-- The kernel's result array ends at the network of its arguments (Proof/KernelValue.lean), the reference's at the
    same network of its own (Proof/RefValue.lean), and the arguments agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.RunCopy.run (F := Ideal) m' ρ')
  obtain ⟨h0, h1, h2, h3, h4, h5, h6, h7, h8, h9, h10, h11, h12, h13, h14, h15, h16, h17, h18⟩ := hagree c
  rewrite [Cert.ReferenceIdeal.Hand.res_eq m' c, h0, h1, h2, h3, h4, h5, h6, h7, h8, h9, h10, h11, h12, h13, h14, h15, h16, h17, h18]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
